-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x150x512x512 : Shape := ⟨4, ![4, 150, 512, 512]⟩
abbrev S4x512x512 : Shape := ⟨3, ![4, 512, 512]⟩
abbrev S_ : Shape := ⟨0, ![]⟩

class Facts : Prop where
  bcast_S_S4x150x512x512 : S_.BroadcastsInDim S4x150x512x512 (![] : Fin 0 → Fin S4x150x512x512.rank)
  reducesTo_S4x150x512x512_S_d0_1_2_3 : S4x150x512x512.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4x150x512x512 .f32) (main_arg1 : IVec S4x512x512 32) : IVec S_ 1 :=
  let main_v0 : FVec F S4x150x512x512 .f32 := Host.absf main_arg0
  let main_cst : FVec F S_ .f32 := constant S_ .f32 0x7F800000#32
  let main_v1 : FVec F S4x150x512x512 .f32 := broadcastInDim S4x150x512x512 ![] bcast_S_S4x150x512x512 main_cst
  let main_v2 : IVec S4x150x512x512 1 := cmpf .olt main_v0 main_v1
  let main_c : IVec S_ 1 := constantI S_ 1 1#1
  let main_v3 : IVec S_ 1 := (fun x v => Host.reduce IntOp.andi x v reducesTo_S4x150x512x512_S_d0_1_2_3 h_S_) main_v2 main_c
  let main_c_0 : IVec S_ 32 := constantI S_ 32 0#32
  let main_v4 : IVec S4x512x512 32 := broadcastInDim S4x512x512 ![] bcast_S_S4x512x512 main_c_0
  let main_v5 : IVec S4x512x512 1 := cmpi .sge main_arg1 main_v4
  let main_c_1 : IVec S_ 1 := constantI S_ 1 1#1
  let main_v6 : IVec S_ 1 := (fun x v => Host.reduce IntOp.andi x v reducesTo_S4x512x512_S_d0_1_2 h_S_) main_v5 main_c_1
  let main_v7 : IVec S_ 1 := andi main_v3 main_v6
  main_v7
-- ==== Kernel.lean ====
abbrev S4x150x512x512 : Shape := ⟨4, ![4, 150, 512, 512]⟩
abbrev S4x512x512 : Shape := ⟨3, ![4, 512, 512]⟩
abbrev S_ : Shape := ⟨0, ![]⟩
abbrev S4x8x150 : Shape := ⟨3, ![4, 8, 150]⟩
abbrev S1x150x16x512 : Shape := ⟨4, ![1, 150, 16, 512]⟩
abbrev S1x16x512 : Shape := ⟨3, ![1, 16, 512]⟩
abbrev S1x8x150 : Shape := ⟨3, ![1, 8, 150]⟩
abbrev S8x150 : Shape := ⟨2, ![8, 150]⟩
abbrev S150x16x512 : Shape := ⟨3, ![150, 16, 512]⟩
abbrev S16x512 : Shape := ⟨2, ![16, 512]⟩
abbrev S150x512 : Shape := ⟨2, ![150, 512]⟩
abbrev S150 : Shape := ⟨1, ![150]⟩
abbrev S1x1x150 : Shape := ⟨3, ![1, 1, 150]⟩
abbrev S4x1x150 : Shape := ⟨3, ![4, 1, 150]⟩
abbrev S4x150 : Shape := ⟨2, ![4, 150]⟩
abbrev S1048576 : Shape := ⟨1, ![1048576]⟩
abbrev S1048576x1 : Shape := ⟨2, ![1048576, 1]⟩

abbrev nBuf : Space → Nat
  | .hbm => 51
  | .vmem => 8
  | .smem => 0
  | _ => 0

abbrev bufTy : (tb : Table) → Fin (tcTables nBuf tb) → BufTy
  | .hbm, ⟨0, _⟩ => ⟨S4x150x512x512, .f32⟩
  | .hbm, ⟨1, _⟩ => ⟨S4x512x512, .i32⟩
  | .hbm, ⟨2, _⟩ => ⟨S_, .i32⟩
  | .hbm, ⟨3, _⟩ => ⟨S4x512x512, .i32⟩
  | .hbm, ⟨4, _⟩ => ⟨S4x512x512, .i1⟩
  | .hbm, ⟨5, _⟩ => ⟨S_, .i32⟩
  | .hbm, ⟨6, _⟩ => ⟨S_, .i32⟩
  | .hbm, ⟨7, _⟩ => ⟨S4x512x512, .i32⟩
  | .hbm, ⟨8, _⟩ => ⟨S4x512x512, .i32⟩
  | .hbm, ⟨9, _⟩ => ⟨S4x8x150, .f32⟩
  | .hbm, ⟨10, _⟩ => ⟨S4x8x150, .f32⟩
  | .hbm, ⟨11, _⟩ => ⟨S4x1x150, .f32⟩
  | .hbm, ⟨12, _⟩ => ⟨S4x150, .f32⟩
  | .hbm, ⟨13, _⟩ => ⟨S_, .f32⟩
  | .hbm, ⟨14, _⟩ => ⟨S150, .f32⟩
  | .hbm, ⟨15, _⟩ => ⟨S4x1x150, .f32⟩
  | .hbm, ⟨16, _⟩ => ⟨S4x150, .f32⟩
  | .hbm, ⟨17, _⟩ => ⟨S_, .f32⟩
  | .hbm, ⟨18, _⟩ => ⟨S150, .f32⟩
  | .hbm, ⟨19, _⟩ => ⟨S_, .f32⟩
  | .hbm, ⟨20, _⟩ => ⟨S150, .f32⟩
  | .hbm, ⟨21, _⟩ => ⟨S1048576, .i32⟩
  | .hbm, ⟨22, _⟩ => ⟨S_, .i32⟩
  | .hbm, ⟨23, _⟩ => ⟨S1048576, .i32⟩
  | .hbm, ⟨24, _⟩ => ⟨S1048576, .i1⟩
  | .hbm, ⟨25, _⟩ => ⟨S_, .i32⟩
  | .hbm, ⟨26, _⟩ => ⟨S1048576, .i32⟩
  | .hbm, ⟨27, _⟩ => ⟨S1048576, .i32⟩
  | .hbm, ⟨28, _⟩ => ⟨S1048576, .i32⟩
  | .hbm, ⟨29, _⟩ => ⟨S1048576x1, .i32⟩
  | .hbm, ⟨30, _⟩ => ⟨S_, .f32⟩
  | .hbm, ⟨31, _⟩ => ⟨S1048576, .f32⟩
  | .hbm, ⟨32, _⟩ => ⟨S150, .f32⟩
  | .hbm, ⟨33, _⟩ => ⟨S_, .f32⟩
  | .hbm, ⟨34, _⟩ => ⟨S150, .f32⟩
  | .hbm, ⟨35, _⟩ => ⟨S150, .f32⟩
  | .hbm, ⟨36, _⟩ => ⟨S_, .f32⟩
  | .hbm, ⟨37, _⟩ => ⟨S150, .f32⟩
  | .hbm, ⟨38, _⟩ => ⟨S150, .f32⟩
  | .hbm, ⟨39, _⟩ => ⟨S150, .f32⟩
  | .hbm, ⟨40, _⟩ => ⟨S_, .f32⟩
  | .hbm, ⟨41, _⟩ => ⟨S150, .f32⟩
  | .hbm, ⟨42, _⟩ => ⟨S150, .f32⟩
  | .hbm, ⟨43, _⟩ => ⟨S150, .f32⟩
  | .hbm, ⟨44, _⟩ => ⟨S_, .f32⟩
  | .hbm, ⟨45, _⟩ => ⟨S150, .f32⟩
  | .hbm, ⟨46, _⟩ => ⟨S150, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S1x150x16x512, .f32⟩
  | .local _ .vmem, ⟨1, _⟩ => ⟨S1x150x16x512, .f32⟩
  | .local _ .vmem, ⟨2, _⟩ => ⟨S1x16x512, .i32⟩
  | .local _ .vmem, ⟨3, _⟩ => ⟨S1x16x512, .i32⟩
  | .local _ .vmem, ⟨4, _⟩ => ⟨S1x8x150, .f32⟩
  | .local _ .vmem, ⟨5, _⟩ => ⟨S1x8x150, .f32⟩
  | .local _ .vmem, ⟨6, _⟩ => ⟨S1x8x150, .f32⟩
  | .local _ .vmem, ⟨7, _⟩ => ⟨S1x8x150, .f32⟩
  | _, _ => ⟨S4x150x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x150x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x150 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x150 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4x512x512 : S_.BroadcastsInDim S4x512x512 (![] : Fin 0 → Fin S4x512x512.rank)
  inb_S1x8x150_S1x8x150_0_0_0 : ∀ a, (![0, 0, 0] : Fin 3 → Nat) a + S1x8x150.size a ≤ S1x8x150.size a
  h_S1x8x150 : 0 < S1x8x150.numel
  shapeCasts_S1x8x150_S8x150 : S1x8x150.ShapeCasts S8x150
  shapeCasts_S8x150_S1x8x150 : S8x150.ShapeCasts S1x8x150
  inb_S1x150x16x512_S1x150x16x512_0_0_0_0 : ∀ a, (![0, 0, 0, 0] : Fin 4 → Nat) a + S1x150x16x512.size a ≤ S1x150x16x512.size a
  h_S1x150x16x512 : 0 < S1x150x16x512.numel
  shapeCasts_S1x150x16x512_S150x16x512 : S1x150x16x512.ShapeCasts S150x16x512
  reduces_S150x16x512_S16x512 : S150x16x512.Reduces [0] S16x512
  shapeCasts_S16x512_S1x16x512 : S16x512.ShapeCasts S1x16x512
  broadcasts_S1x16x512_S150x16x512 : S1x16x512.Broadcasts S150x16x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  iota_S150x16x512_d0_w32 : S150x16x512.Iotas .tc 32 [0]
  reduces_S150x16x512_S150x512 : S150x16x512.Reduces [1] S150x512
  reduces_S150x512_S150 : S150x512.Reduces [1] S150
  inb_S1x8x150_S1x1x150_0_0_0 : ∀ a, (![0, 0, 0] : Fin 3 → Nat) a + S1x1x150.size a ≤ S1x8x150.size a
  h_S1x1x150 : 0 < S1x1x150.numel
  shapeCasts_S1x1x150_S150 : S1x1x150.ShapeCasts S150
  shapeCasts_S150_S1x1x150 : S150.ShapeCasts S1x1x150
  slices_S4x8x150_S4x1x150_0_0_0 : S4x8x150.Slices ![0, 0, 0] S4x1x150
  shapeCasts_S4x1x150_S4x150 : S4x1x150.ShapeCasts S4x150
  reducesTo_S4x150_S150_d0 : S4x150.ReducesTo [0] S150
  h_S_ : 0 < S_.numel
  bcast_S_S150 : S_.BroadcastsInDim S150 (![] : Fin 0 → Fin S150.rank)
  shapeCasts_S4x512x512_S1048576 : S4x512x512.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S150_S_d0 : S150.ReducesTo [0] S_
  scatter_S150_S1048576x1_S1048576_n_0_0_1_wf : ScatterDims.WF S150 S1048576x1 S1048576 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x150x16x512.size a ≤ S4x150x512x512.size a
  hwx0_0 : ∀ i : grid0.Coords, EltTy.bits .f32 = 32 ∨ (Rect.block (s := S4x150x512x512) S1x150x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x512.size a ≤ S4x512x512.size a
  hwx0_1 : ∀ i : grid0.Coords, EltTy.bits .i32 = 32 ∨ (Rect.block (s := S4x512x512) S1x16x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x150.size a ≤ S4x8x150.size a
  hwx0_2 : ∀ i : grid0.Coords, EltTy.bits .f32 = 32 ∨ (Rect.block (s := S4x8x150) S1x8x150.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x150.size a ≤ S4x8x150.size a
  hwx0_3 : ∀ i : grid0.Coords, EltTy.bits .f32 = 32 ∨ (Rect.block (s := S4x8x150) S1x8x150.size (cc0_transform_3 i) (hinb0_3 i)).WholeWords (EltTy.packing .f32)

variable [Facts₀]

def scatter_S150_S1048576x1_S1048576_n_0_0_1 : ScatterDims S150 S1048576x1 S1048576 where
  updateWindowDims := []
  insertedWindowDims := [0]
  scatterDimsToOperandDims := [0]
  indexVectorDim := 1
  wf := scatter_S150_S1048576x1_S1048576_n_0_0_1_wf

abbrev win0_0 : Pipeline.Window sig grid0 :=
  Pipeline.Window.ofSpec (Memref.whole main_arg0) S1x150x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x8x150.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x8x150.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x150x512x512 : Shape := ⟨4, ![4, 150, 512, 512]⟩
abbrev S4x512x512 : Shape := ⟨3, ![4, 512, 512]⟩
abbrev S_ : Shape := ⟨0, ![]⟩
abbrev S4x1x512x512 : Shape := ⟨4, ![4, 1, 512, 512]⟩
abbrev S150 : Shape := ⟨1, ![150]⟩
abbrev S4x1x512x512x1 : Shape := ⟨5, ![4, 1, 512, 512, 1]⟩
abbrev S1 : Shape := ⟨1, ![1]⟩
abbrev S1x1x1x1x1 : Shape := ⟨5, ![1, 1, 1, 1, 1]⟩
abbrev S1048576 : Shape := ⟨1, ![1048576]⟩
abbrev S1048576x1 : Shape := ⟨2, ![1048576, 1]⟩

abbrev nBuf : Space → Nat
  | .hbm => 94
  | .vmem => 0
  | .smem => 0
  | _ => 0

abbrev bufTy : (tb : Table) → Fin (tcTables nBuf tb) → BufTy
  | .hbm, ⟨0, _⟩ => ⟨S4x150x512x512, .f32⟩
  | .hbm, ⟨1, _⟩ => ⟨S4x512x512, .i32⟩
  | .hbm, ⟨2, _⟩ => ⟨S_, .i32⟩
  | .hbm, ⟨3, _⟩ => ⟨S4x512x512, .i32⟩
  | .hbm, ⟨4, _⟩ => ⟨S4x512x512, .i1⟩
  | .hbm, ⟨5, _⟩ => ⟨S_, .i32⟩
  | .hbm, ⟨6, _⟩ => ⟨S_, .i32⟩
  | .hbm, ⟨7, _⟩ => ⟨S4x512x512, .i32⟩
  | .hbm, ⟨8, _⟩ => ⟨S4x512x512, .i32⟩
  | .hbm, ⟨9, _⟩ => ⟨S_, .f32⟩
  | .hbm, ⟨10, _⟩ => ⟨S4x512x512, .f32⟩
  | .hbm, ⟨11, _⟩ => ⟨S_, .f32⟩
  | .hbm, ⟨12, _⟩ => ⟨S4x512x512, .f32⟩
  | .hbm, ⟨13, _⟩ => ⟨S4x512x512, .f32⟩
  | .hbm, ⟨14, _⟩ => ⟨S4x1x512x512, .f32⟩
  | .hbm, ⟨15, _⟩ => ⟨S4x150x512x512, .f32⟩
  | .hbm, ⟨16, _⟩ => ⟨S4x150x512x512, .f32⟩
  | .hbm, ⟨17, _⟩ => ⟨S4x150x512x512, .f32⟩
  | .hbm, ⟨18, _⟩ => ⟨S_, .f32⟩
  | .hbm, ⟨19, _⟩ => ⟨S4x512x512, .f32⟩
  | .hbm, ⟨20, _⟩ => ⟨S4x1x512x512, .f32⟩
  | .hbm, ⟨21, _⟩ => ⟨S4x150x512x512, .f32⟩
  | .hbm, ⟨22, _⟩ => ⟨S4x150x512x512, .f32⟩
  | .hbm, ⟨23, _⟩ => ⟨S4x150x512x512, .f32⟩
  | .hbm, ⟨24, _⟩ => ⟨S_, .f32⟩
  | .hbm, ⟨25, _⟩ => ⟨S150, .f32⟩
  | .hbm, ⟨26, _⟩ => ⟨S4x1x512x512, .i32⟩
  | .hbm, ⟨27, _⟩ => ⟨S_, .i32⟩
  | .hbm, ⟨28, _⟩ => ⟨S4x1x512x512, .i32⟩
  | .hbm, ⟨29, _⟩ => ⟨S4x1x512x512, .i1⟩
  | .hbm, ⟨30, _⟩ => ⟨S_, .i32⟩
  | .hbm, ⟨31, _⟩ => ⟨S4x1x512x512, .i32⟩
  | .hbm, ⟨32, _⟩ => ⟨S4x1x512x512, .i32⟩
  | .hbm, ⟨33, _⟩ => ⟨S4x1x512x512, .i32⟩
  | .hbm, ⟨34, _⟩ => ⟨S4x1x512x512x1, .i32⟩
  | .hbm, ⟨35, _⟩ => ⟨S1, .i32⟩
  | .hbm, ⟨36, _⟩ => ⟨S_, .i32⟩
  | .hbm, ⟨37, _⟩ => ⟨S4x1x512x512x1, .i32⟩
  | .hbm, ⟨38, _⟩ => ⟨S4x1x512x512x1, .i1⟩
  | .hbm, ⟨39, _⟩ => ⟨S1x1x1x1x1, .i32⟩
  | .hbm, ⟨40, _⟩ => ⟨S4x1x512x512x1, .i32⟩
  | .hbm, ⟨41, _⟩ => ⟨S4x1x512x512x1, .i1⟩
  | .hbm, ⟨42, _⟩ => ⟨S4x1x512x512x1, .i1⟩
  | .hbm, ⟨43, _⟩ => ⟨S_, .i1⟩
  | .hbm, ⟨44, _⟩ => ⟨S4x1x512x512, .i1⟩
  | .hbm, ⟨45, _⟩ => ⟨S4x1x512x512, .f32⟩
  | .hbm, ⟨46, _⟩ => ⟨S_, .f32⟩
  | .hbm, ⟨47, _⟩ => ⟨S4x1x512x512, .f32⟩
  | .hbm, ⟨48, _⟩ => ⟨S4x1x512x512, .f32⟩
  | .hbm, ⟨49, _⟩ => ⟨S4x512x512, .f32⟩
  | .hbm, ⟨50, _⟩ => ⟨S1048576, .i32⟩
  | .hbm, ⟨51, _⟩ => ⟨S_, .f32⟩
  | .hbm, ⟨52, _⟩ => ⟨S150, .f32⟩
  | .hbm, ⟨53, _⟩ => ⟨S1048576, .f32⟩
  | .hbm, ⟨54, _⟩ => ⟨S_, .i32⟩
  | .hbm, ⟨55, _⟩ => ⟨S1048576, .i32⟩
  | .hbm, ⟨56, _⟩ => ⟨S1048576, .i1⟩
  | .hbm, ⟨57, _⟩ => ⟨S_, .i32⟩
  | .hbm, ⟨58, _⟩ => ⟨S1048576, .i32⟩
  | .hbm, ⟨59, _⟩ => ⟨S1048576, .i32⟩
  | .hbm, ⟨60, _⟩ => ⟨S1048576, .i32⟩
  | .hbm, ⟨61, _⟩ => ⟨S1048576x1, .i32⟩
  | .hbm, ⟨62, _⟩ => ⟨S150, .f32⟩
  | .hbm, ⟨63, _⟩ => ⟨S_, .f32⟩
  | .hbm, ⟨64, _⟩ => ⟨S150, .f32⟩
  | .hbm, ⟨65, _⟩ => ⟨S_, .i32⟩
  | .hbm, ⟨66, _⟩ => ⟨S1048576, .i32⟩
  | .hbm, ⟨67, _⟩ => ⟨S1048576, .i1⟩
  | .hbm, ⟨68, _⟩ => ⟨S_, .i32⟩
  | .hbm, ⟨69, _⟩ => ⟨S1048576, .i32⟩
  | .hbm, ⟨70, _⟩ => ⟨S1048576, .i32⟩
  | .hbm, ⟨71, _⟩ => ⟨S1048576, .i32⟩
  | .hbm, ⟨72, _⟩ => ⟨S1048576x1, .i32⟩
  | .hbm, ⟨73, _⟩ => ⟨S_, .f32⟩
  | .hbm, ⟨74, _⟩ => ⟨S1048576, .f32⟩
  | .hbm, ⟨75, _⟩ => ⟨S150, .f32⟩
  | .hbm, ⟨76, _⟩ => ⟨S_, .f32⟩
  | .hbm, ⟨77, _⟩ => ⟨S150, .f32⟩
  | .hbm, ⟨78, _⟩ => ⟨S150, .f32⟩
  | .hbm, ⟨79, _⟩ => ⟨S_, .f32⟩
  | .hbm, ⟨80, _⟩ => ⟨S150, .f32⟩
  | .hbm, ⟨81, _⟩ => ⟨S150, .f32⟩
  | .hbm, ⟨82, _⟩ => ⟨S150, .f32⟩
  | .hbm, ⟨83, _⟩ => ⟨S_, .f32⟩
  | .hbm, ⟨84, _⟩ => ⟨S150, .f32⟩
  | .hbm, ⟨85, _⟩ => ⟨S150, .f32⟩
  | .hbm, ⟨86, _⟩ => ⟨S150, .f32⟩
  | .hbm, ⟨87, _⟩ => ⟨S_, .f32⟩
  | .hbm, ⟨88, _⟩ => ⟨S150, .f32⟩
  | .hbm, ⟨89, _⟩ => ⟨S150, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S4x150x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_c_5 : Ref sig .tc := ⟨.hbm, 54, rfl⟩
abbrev main_v22 : Ref sig .tc := ⟨.hbm, 55, rfl⟩
abbrev main_v23 : Ref sig .tc := ⟨.hbm, 56, rfl⟩
abbrev main_c_6 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_c_8 : Ref sig .tc := ⟨.hbm, 65, rfl⟩
abbrev main_v30 : Ref sig .tc := ⟨.hbm, 66, rfl⟩
abbrev main_v31 : Ref sig .tc := ⟨.hbm, 67, rfl⟩
abbrev main_c_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_10 : Ref sig .tc := ⟨.hbm, 73, rfl⟩
abbrev main_v36 : Ref sig .tc := ⟨.hbm, 74, rfl⟩
abbrev main_v37 : Ref sig .tc := ⟨.hbm, 75, rfl⟩
abbrev main_cst_11 : Ref sig .tc := ⟨.hbm, 76, rfl⟩
abbrev main_v38 : Ref sig .tc := ⟨.hbm, 77, rfl⟩
abbrev main_v39 : Ref sig .tc := ⟨.hbm, 78, rfl⟩
abbrev main_cst_12 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_13 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_14 : Ref sig .tc := ⟨.hbm, 87, rfl⟩
abbrev main_v46 : Ref sig .tc := ⟨.hbm, 88, rfl⟩
abbrev main_v47 : Ref sig .tc := ⟨.hbm, 89, rfl⟩
abbrev main_cst_15 : Ref sig .tc := ⟨.hbm, 90, rfl⟩
abbrev main_v48 : Ref sig .tc := ⟨.hbm, 91, rfl⟩
abbrev main_cst_16 : Ref sig .tc := ⟨.hbm, 92, rfl⟩
abbrev main_v49 : Ref sig .tc := ⟨.hbm, 93, rfl⟩

abbrev nD : Nat := 1
abbrev τ : Topo := Topo.v7x

variable {F : FTy → Type} [FloatOps F]

class Facts₀ : Prop where
  bcast_S_S4x512x512 : S_.BroadcastsInDim S4x512x512 (![] : Fin 0 → Fin S4x512x512.rank)
  reducesTo_S4x150x512x512_S4x512x512_d1 : S4x150x512x512.ReducesTo [1] S4x512x512
  h_S_ : 0 < S_.numel
  bcast_S4x512x512_S4x1x512x512_0_2_3 : S4x512x512.BroadcastsInDim S4x1x512x512 (![0, 2, 3] : Fin 3 → Fin S4x1x512x512.rank)
  bcast_S4x1x512x512_S4x150x512x512_0_1_2_3 : S4x1x512x512.BroadcastsInDim S4x150x512x512 (![0, 1, 2, 3] : Fin 4 → Fin S4x150x512x512.rank)
  reducesTo_S4x150x512x512_S150_d0_2_3 : S4x150x512x512.ReducesTo [0, 2, 3] S150
  bcast_S_S4x1x512x512 : S_.BroadcastsInDim S4x1x512x512 (![] : Fin 0 → Fin S4x1x512x512.rank)
  shapeCasts_S4x1x512x512_S4x1x512x512x1 : S4x1x512x512.ShapeCasts S4x1x512x512x1
  bcast_S_S4x1x512x512x1 : S_.BroadcastsInDim S4x1x512x512x1 (![] : Fin 0 → Fin S4x1x512x512x1.rank)
  bcast_S1_S1x1x1x1x1_4 : S1.BroadcastsInDim S1x1x1x1x1 (![4] : Fin 1 → Fin S1x1x1x1x1.rank)
  bcast_S1x1x1x1x1_S4x1x512x512x1_0_1_2_3_4 : S1x1x1x1x1.BroadcastsInDim S4x1x512x512x1 (![0, 1, 2, 3, 4] : Fin 5 → Fin S4x1x512x512x1.rank)
  reducesTo_S4x1x512x512x1_S4x1x512x512_d4 : S4x1x512x512x1.ReducesTo [4] S4x1x512x512
  shapeCasts_S4x1x512x512_S4x512x512 : S4x1x512x512.ShapeCasts S4x512x512
  shapeCasts_S4x512x512_S1048576 : S4x512x512.ShapeCasts S1048576
  bcast_S_S150 : S_.BroadcastsInDim S150 (![] : Fin 0 → Fin S150.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S150_S_d0 : S150.ReducesTo [0] S_
  gather_S4x150x512x512_S4x1x512x512x1_S4x1x512x512_n_1_023_023_1_4_1111_wf : GatherDims.WF S4x150x512x512 S4x1x512x512x1 S4x1x512x512 [] [1] [0, 2, 3] [1] [0, 2, 3] 4 ![1, 1, 1, 1]
  scatter_S150_S1048576x1_S1048576_n_0_0_1_wf : ScatterDims.WF S150 S1048576x1 S1048576 [] [0] [0] 1

variable [Facts₀]

def gather_S4x150x512x512_S4x1x512x512x1_S4x1x512x512_n_1_023_023_1_4_1111 : GatherDims S4x150x512x512 S4x1x512x512x1 S4x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S4x150x512x512_S4x1x512x512x1_S4x1x512x512_n_1_023_023_1_4_1111_wf
def scatter_S150_S1048576x1_S1048576_n_0_0_1 : ScatterDims S150 S1048576x1 S1048576 where
  updateWindowDims := []
  insertedWindowDims := [0]
  scatterDimsToOperandDims := [0]
  indexVectorDim := 1
  wf := scatter_S150_S1048576x1_S1048576_n_0_0_1_wf

class Facts : Prop extends Facts₀ where

variable [Facts]
-- ==== Proof.Spec.lean ====
/-
  The Dice loss, as both programs compute it over the extended reals.

  For logits `x[b, k, h, w]` (4 images, 150 classes, 512 x 512 pixels) and integer labels `t[b, h, w]`:
  the label 255 ("ignore") is read as class 0 (`lab`); `prob` is the softmax over the class axis, written as
  `exp x` times the reciprocal of the sum of the exponentials; per class `c`, `xs c` is the sum over all pixels of
  `prob²`, `it c` the sum of `prob` over the pixels labelled `c`, and `ysum c` the number of pixels labelled `c`
  (a scatter-add of ones at the labels, a negative label counted from the end of the class axis). Then
  `dice c = (2 · it c + ε) / (xs c + ysum c + ε)` and `loss = (∑ c, (1 − dice c)) / 150`.
-/
import Idealize.ShloMosaic.PureOps
import Idealize.ShloMosaic.PureOps.Ideal
import Idealize.ShloMosaic.PureOps.Ideal.Laws
import Idealize.ShloMosaic.Lib.ValueIdx

noncomputable section

namespace Cert.Dice

open Idealize.ShloMosaic Idealize.ShloMosaic.ValueIdx
open scoped BigOperators

/-- logits, labels, one value per class, a scalar, the flattened pixels. -/
abbrev SX : Shape := ⟨4, ![4, 150, 512, 512]⟩
abbrev ST : Shape := ⟨3, ![4, 512, 512]⟩
abbrev SC : Shape := ⟨1, ![150]⟩
abbrev S0 : Shape := ⟨0, ![]⟩
abbrev SF : Shape := ⟨1, ![1048576]⟩
abbrev SF1 : Shape := ⟨2, ![1048576, 1]⟩

/-- The label with the ignore value 255 read as class 0. -/
def lab (t : ST.Idx → BitVec 32) : ST.Idx → BitVec 32 :=
  fun p => Scalar.select (IntOp.cmpi .ne (t p) 255#32) (t p) 0#32

/-- The sum of the exponentials over the class axis at the pixel of index `i`. -/
def expSum (x : SX.Idx → EReal) (i : SX.Idx) : EReal :=
  ∑ k : Fin 150, Ideal.exp (x (ix4 (i 0) k (i 2) (i 3)))

/-- Softmax over the class axis: the exponential times the reciprocal of the sum of the exponentials. -/
def prob (x : SX.Idx → EReal) (i : SX.Idx) : EReal :=
  Ideal.exp (x i) * Ideal.div (Ideal.ofBits .f32 0x3F800000#32) (expSum x i)

/-- Per class, the sum over all pixels of the squared probability. -/
def xs (x : SX.Idx → EReal) (c : Fin 150) : EReal :=
  ∑ b : Fin 4, ∑ h : Fin 512, ∑ w : Fin 512, prob x (ix4 b c h w) * prob x (ix4 b c h w)

/-- Per class, the sum of the probability of that class over the pixels that carry its label. -/
def it (x : SX.Idx → EReal) (l : ST.Idx → BitVec 32) (c : Fin 150) : EReal :=
  ∑ b : Fin 4, ∑ h : Fin 512, ∑ w : Fin 512,
    if l (ix3 b h w) = BitVec.ofNat 32 c.val then prob x (ix4 b c h w) else 0

/-- The dimension numbers of the scatter-add into the class axis: one index per update. -/
def scat : ScatterDims SC SF1 SF where
  updateWindowDims := []
  insertedWindowDims := [0]
  scatterDimsToOperandDims := [0]
  indexVectorDim := 1

/-- Per class, the number of pixels with that label: ones scattered at the flattened labels, a negative label
    moved up by 150 first. -/
def ysum (hc : ST.ShapeCasts SF) (hb : S0.BroadcastsInDim SF (![] : Fin 0 → Fin SF.rank))
    (hb1 : SF.BroadcastsInDim SF1 (![0] : Fin 1 → Fin SF1.rank))
    (hbc : S0.BroadcastsInDim SC (![] : Fin 0 → Fin SC.rank)) (l : IVec ST 32) : FVec Ideal SC .f32 :=
  Host.scatterAdd (F := Ideal) scat (broadcastInDim SC ![] hbc (constant (F := Ideal) S0 .f32 0x00000000#32))
    (broadcastInDim SF1 ![0] hb1
      (select (cmpi .slt (shapeCast SF l hc) (broadcastInDim SF ![] hb (constantI S0 32 0#32)))
        (addi (shapeCast SF l hc) (broadcastInDim SF ![] hb (constantI S0 32 150#32)))
        (shapeCast SF l hc)))
    (broadcastInDim SF ![] hb (constant (F := Ideal) S0 .f32 0x3F800000#32))

/-- `dice c = (2 · it c + ε) / ((xs c + ysum c) + ε)`, with `ε` the f32 nearest to 1e-5. -/
def dice (hbc : S0.BroadcastsInDim SC (![] : Fin 0 → Fin SC.rank)) (xsv itv ysv : FVec Ideal SC .f32) : FVec Ideal SC .f32 :=
  Host.divf (F := Ideal)
    (addf (mulf (broadcastInDim SC ![] hbc (constant (F := Ideal) S0 .f32 0x40000000#32)) itv)
      (broadcastInDim SC ![] hbc (constant (F := Ideal) S0 .f32 0x3727C5AC#32)))
    (addf (addf xsv ysv) (broadcastInDim SC ![] hbc (constant (F := Ideal) S0 .f32 0x3727C5AC#32)))

/-- `loss = (0 + ∑ c, (1 − dice c)) / 150`. -/
def loss (hbc : S0.BroadcastsInDim SC (![] : Fin 0 → Fin SC.rank)) (hr : SC.ReducesTo [0] S0) (h0 : 0 < S0.numel)
    (d : FVec Ideal SC .f32) : FVec Ideal S0 .f32 :=
  Host.divf (F := Ideal)
    (Host.reduceAdd (F := Ideal) (subf (broadcastInDim SC ![] hbc (constant (F := Ideal) S0 .f32 0x3F800000#32)) d)
      (constant (F := Ideal) S0 .f32 0x00000000#32) hr h0)
    (constant (F := Ideal) S0 .f32 0x43160000#32)

/-- Row `r` of the `j`-th tile of 16 rows. -/
def row (j : Fin 32) (r : Fin 16) : Fin 512 := ⟨16 * j.val + r.val, by have := j.isLt; have := r.isLt; omega⟩

/-- The per-class sums as arrays over the class axis. -/
def xsV (x : SX.Idx → EReal) : FVec Ideal SC .f32 := fun j => xs x (j 0)
def itV (x : SX.Idx → EReal) (l : ST.Idx → BitVec 32) : FVec Ideal SC .f32 := fun j => it x l (j 0)

end Cert.Dice

end
-- ==== Proof.PreFacts.lean ====
/-
  What the precondition says of the inputs: every logit is a real number, and no label is negative.
-/
import proofs.«414628_j16355235463504_3_alg».proof.Pre_finite_inputs
import proofs.«414628_j16355235463504_3_alg».proof.Proof.Gen.Pre_finite_inputs
import proofs.«414628_j16355235463504_3_alg».proof.Proof.Spec
import Idealize.ShloMosaic.Lib.ReduceAll
import Idealize.ShloMosaic.Lib.StableHlo.Predicate

noncomputable section

namespace Cert.Dice.Pre

open Idealize.ShloMosaic Idealize.ShloMosaic.ValueIdx Cert.Dice

/-- The scalar shape has exactly one index. -/
local instance : Subsingleton Cert.Pre_finite_inputs.S_.Idx := ⟨fun a b => funext fun d => d.elim0⟩

/-- An extended real whose absolute value is strictly below `+∞` is a real number. -/
theorem real_of_abs_lt (a : EReal)
    (e : FloatOps.cmpf (F := Ideal) (φ := .f32) .olt (FloatOps.absf a) (FloatOps.ofBits .f32 0x7F800000#32) = 1#1) :
    ∃ r : ℝ, a = (r : EReal) := by
  have htop : Ideal.ofBits .f32 0x7F800000#32 = ⊤ := by simp [Ideal.ofBits, Ideal.ieee]
  change Ideal.cmp .olt (max a (-a)) (Ideal.ofBits .f32 0x7F800000#32) = 1#1 at e
  rw [htop] at e
  unfold Ideal.cmp at e
  rw [StableHlo.Predicate.ofBool_eq_one_iff] at e
  induction a using EReal.rec with
  | bot => simp at e
  | coe r => exact ⟨r, rfl⟩
  | top => simp at e

/-- A word that is at least zero in the signed order has a non-negative signed value. -/
theorem toInt_nonneg_of_sge (w : BitVec 32) (e : IntOp.cmpi .sge w 0#32 = 1#1) : 0 ≤ w.toInt := by
  unfold IntOp.cmpi at e
  rw [StableHlo.Predicate.ofBool_eq_one_iff] at e
  simpa [BitVec.sle] using e

/-- Under the precondition every logit is a real number and every label is non-negative as a signed integer. -/
theorem of_pre [Cert.Pre_finite_inputs.Facts] (x : FVec Ideal SX .f32) (t : IVec ST 32)
    (h : Cert.Pre_finite_inputs.fn (F := Ideal) x t = fun _ => 1#1) :
    (∀ i, ∃ r : ℝ, x i = (r : EReal)) ∧ (∀ p, 0 ≤ (t p).toInt) := by
  have h0 := congrFun h ValueIdx.ix0
  dsimp only [Cert.Pre_finite_inputs.fn] at h0
  obtain ⟨hx, ht⟩ := IntOp.andi_eq_one.1 h0
  refine ⟨fun i => ?_, fun p => ?_⟩
  · have e := Host.reduce_andi_all _ _ _ _ _ hx i
    exact real_of_abs_lt (x i) e
  · have e := Host.reduce_andi_all _ _ _ _ _ ht p
    exact toInt_nonneg_of_sge (t p) e

end Cert.Dice.Pre

end
-- ==== Proof.KPieces.lean ====
/-
  What one grid point leaves in row 0 of the two accumulator blocks. At the first row tile of an image the block is
  zeroed and the tile's partial sums are added to row 0; at every later tile they are added to what row 0 held.
-/
import proofs.«414628_j16355235463504_3_alg».proof.Proof.Gen.KernelIdeal.Frame
import proofs.«414628_j16355235463504_3_alg».proof.Proof.Spec
import Idealize.ShloMosaic.Lib.Pipeline.Value
import Idealize.ShloMosaic.Lib.WritesUnit
import Idealize.ShloMosaic.Lib.Tactic

noncomputable section

namespace Cert.KernelIdeal.DiceValue

open Cert.KernelIdeal Cert.KernelIdeal.Gen Idealize.ShloMosaic Idealize.ShloMosaic.TcCoe Idealize.ShloMosaic.ValueIdx Idealize.SL.Sem

/-- One tile's contribution to the per-class sums of squares: the squared probabilities of the tile summed over its
    16 rows, then over its 512 columns. -/
def xsPart (x0 : Vec Ideal S1x150x16x512 .f32) : FVec Ideal S150 .f32 :=
  multiReduction .add [1] S150
    (multiReduction .add [1] S150x512 (mulf (k0_pay4 (F := Ideal) x0) (k0_pay4 (F := Ideal) x0)) 0x00000000#32 reduces_S150x16x512_S150x512 (.inl rfl) rfl)
    0x00000000#32 reduces_S150x512_S150 (.inl rfl) rfl

/-- One tile's contribution to the per-class intersection sums. -/
abbrev inPart (x0 : Vec Ideal S1x150x16x512 .f32) (x1 : Vec Ideal S1x16x512 .i32) : FVec Ideal S150 .f32 :=
  k0_pay5 (F := Ideal) x0 x1

/-- Position (0, 0, cc) of a [1, 1, 150] block and position cc of a [150] vector are the same row-major position. -/
theorem rm_eq (cc : Fin 150) : (S1x1x150.rowMajor (ix3 0 0 cc)).val = (S150.rowMajor (ix1 cc)).val := by
  rw [Shape.rowMajor_val_three, Shape.rowMajor_val_one]
  show (0 * 1 + 0) * 150 + cc.val = cc.val
  omega

/-- The row store of the sums of squares, at class cc: what row 0 held plus the tile's contribution. -/
theorem pay6_apply (v3 : Vec Ideal S1x150x16x512 .f32) (v25 : Vec Ideal S1x1x150 .f32) (cc : Fin 150) :
    k0_pay6 (F := Ideal) v3 v25 (ix3 0 0 cc) = (v25 (ix3 0 0 cc) : EReal) + xsPart v3 (ix1 cc) := by
  unfold k0_pay6 xsPart
  refine (shapeCast_apply _ shapeCasts_S150_S1x1x150 (ix3 0 0 cc) (ix1 cc) (rm_eq cc).symm).trans ?_
  refine (addf_apply _ _ _).trans ?_
  exact congrArg (· + _) (shapeCast_apply v25 shapeCasts_S1x1x150_S150 (ix1 cc) (ix3 0 0 cc) (rm_eq cc))

/-- The row store of the intersections, at class cc. -/
theorem pay1_apply (v24 : FVec Ideal S150 .f32) (v31 : Vec Ideal S1x1x150 .f32) (cc : Fin 150) :
    k0_pay1 (F := Ideal) v24 v31 (ix3 0 0 cc) = (v31 (ix3 0 0 cc) : EReal) + v24 (ix1 cc) := by
  unfold k0_pay1
  refine (shapeCast_apply _ shapeCasts_S150_S1x1x150 (ix3 0 0 cc) (ix1 cc) (rm_eq cc).symm).trans ?_
  refine (addf_apply _ _ _).trans ?_
  exact congrArg (· + _) (shapeCast_apply v31 shapeCasts_S1x1x150_S150 (ix1 cc) (ix3 0 0 cc) (rm_eq cc))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Index (0, 0, cc) lies at position (0, 0, cc) of the row-0 rectangle. -/
theorem row0_pos (cc : Fin 150) (a : Fin S1x8x150.rank) :
    ((ix3 (0 : Fin 1) (0 : Fin 8) cc : S1x8x150.Idx) a).val = (![0, 0, 0] : Fin 3 → Nat) a + ((ix3 (0 : Fin 1) (0 : Fin 1) cc : S1x1x150.Idx) a).val :=
  match a with
  | ⟨0, _⟩ => rfl
  | ⟨1, _⟩ => rfl
  | ⟨2, _⟩ => (Nat.zero_add _).symm

/-- The zero block reads the zero word everywhere. -/
theorem pay2_apply (j : S1x8x150.Idx) : k0_pay2 (F := Ideal) j = (0 : EReal) := Ideal.ofBits_zero_f32
theorem pay3_apply (j : S1x8x150.Idx) : k0_pay3 (F := Ideal) j = (0 : EReal) := Ideal.ofBits_zero_f32

/-- Position (0, 0, cc) of the row-0 rectangle is index (0, 0, cc) of the block. -/
theorem row0_idx (cc : Fin 150) :
    (Rect.unit (s := S1x8x150) ![0, 0, 0] S1x1x150.size inb_S1x8x150_S1x1x150_0_0_0).idx (ix3 (0 : Fin 1) (0 : Fin 1) cc)
      = (ix3 (0 : Fin 1) (0 : Fin 8) cc : S1x8x150.Idx) :=
  funext fun a => Fin.ext (match a with
    | ⟨0, _⟩ => rfl
    | ⟨1, _⟩ => rfl
    | ⟨2, _⟩ => by show 0 + 1 * cc.val = cc.val; omega)

section
variable (c : Dev nD) (i : grid0.Coords) (arg2 : Memref sig .tc .vmem S1x150x16x512 .f32) (harg2 : arg2.IsWhole)
  (arg3 : Memref sig .tc .vmem S1x16x512 .i32) (harg3 : arg3.IsWhole) (arg4 : Memref sig .tc .vmem S1x8x150 .f32) (harg4 : arg4.IsWhole)
  (arg5 : Memref sig .tc .vmem S1x8x150 .f32) (harg5 : arg5.IsWhole)
  (x0 : Vec Ideal S1x150x16x512 .f32) (x1 : Vec Ideal S1x16x512 .i32)

/-- First tile, sums of squares: row 0 holds the tile's contribution (zero plus it). -/
theorem out_A_2_row0 (hc0 : cond0_0 i) (cc : Fin 150) :
    out0_A_2 (F := Ideal) c i arg2 harg2 arg3 harg3 arg4 harg4 arg5 harg5 hc0 x0 x1 (ix3 0 0 cc) = xsPart x0 (ix1 cc) := by
  unfold out0_A_2; unfold kernelRun0_A; dsimp only; sl_unfold_words
  refine (View.read_writes_cons_unit_of_mem VO0_2 VO0_2.junk inb_S1x8x150_S1x1x150_0_0_0 _ _ (ix3 0 0 cc) (ix3 0 0 cc) rfl (row0_pos cc)).trans ?_
  refine (pay6_apply _ _ cc).trans ?_
  rw [View.readAt_eq_ld, harg2.read_unread, View.ld_unit_zero (S := S1x150x16x512) hz4]
  rw [View.readCov_eq_canon', View.canon_unit_zero (S := S1x8x150) hz3]
  show k0_pay2 (F := Ideal) _ + _ = _
  rw [pay2_apply, zero_add]

/-- First tile, intersections. -/
theorem out_A_3_row0 (hc0 : cond0_0 i) (cc : Fin 150) :
    out0_A_3 (F := Ideal) c i arg2 harg2 arg3 harg3 arg4 harg4 arg5 harg5 hc0 x0 x1 (ix3 0 0 cc) = inPart x0 x1 (ix1 cc) := by
  unfold out0_A_3; unfold kernelRun0_A; dsimp only; sl_unfold_words
  refine (View.read_writes_cons_unit_of_mem VO0_3 VO0_3.junk inb_S1x8x150_S1x1x150_0_0_0 _ _ (ix3 0 0 cc) (ix3 0 0 cc) rfl (row0_pos cc)).trans ?_
  refine (pay1_apply _ _ cc).trans ?_
  rw [View.readAt_eq_ld, harg2.read_unread, View.ld_unit_zero (S := S1x150x16x512) hz4]
  rw [View.readAt_eq_ld, harg3.read_unread, View.ld_unit_zero (S := S1x16x512) hz3]
  rw [View.readCov_eq_canon', View.canon_unit_zero (S := S1x8x150) hz3]
  show k0_pay3 (F := Ideal) _ + _ = _
  rw [pay3_apply, zero_add]

/-- A later tile, sums of squares: row 0 holds what it held plus the tile's contribution. -/
theorem out_B_2_row0 (hc0 : ¬cond0_0 i) (xo2 xo3 : Vec Ideal S1x8x150 .f32) (cc : Fin 150) :
    out0_B_2 (F := Ideal) c i arg2 harg2 arg3 harg3 arg4 harg4 arg5 harg5 hc0 x0 x1 xo2 xo3 (ix3 0 0 cc)
      = (xo2 (ix3 0 0 cc) : EReal) + xsPart x0 (ix1 cc) := by
  unfold out0_B_2; unfold kernelRun0_B; dsimp only; sl_unfold_words
  refine (View.read_writes_cons_unit_of_mem arg4.view (harg4.unread xo2) inb_S1x8x150_S1x1x150_0_0_0 _ _ (ix3 0 0 cc) (ix3 0 0 cc) rfl (row0_pos cc)).trans ?_
  refine (pay6_apply _ _ cc).trans ?_
  simp only [View.readAt_eq_ld, harg2.read_unread, harg4.read_unread]
  rw [View.ld_unit_zero (S := S1x150x16x512) hz4]
  show xo2 _ + _ = _
  rw [row0_idx]

/-- A later tile, intersections. -/
theorem out_B_3_row0 (hc0 : ¬cond0_0 i) (xo2 xo3 : Vec Ideal S1x8x150 .f32) (cc : Fin 150) :
    out0_B_3 (F := Ideal) c i arg2 harg2 arg3 harg3 arg4 harg4 arg5 harg5 hc0 x0 x1 xo2 xo3 (ix3 0 0 cc)
      = (xo3 (ix3 0 0 cc) : EReal) + inPart x0 x1 (ix1 cc) := by
  unfold out0_B_3; unfold kernelRun0_B; dsimp only; sl_unfold_words
  refine (View.read_writes_cons_unit_of_mem arg5.view (harg5.unread xo3) inb_S1x8x150_S1x1x150_0_0_0 _ _ (ix3 0 0 cc) (ix3 0 0 cc) rfl (row0_pos cc)).trans ?_
  refine (pay1_apply _ _ cc).trans ?_
  simp only [View.readAt_eq_ld, harg2.read_unread, harg3.read_unread, harg5.read_unread]
  rw [View.ld_unit_zero (S := S1x150x16x512) hz4, View.ld_unit_zero (S := S1x16x512) hz3]
  show xo3 _ + _ = _
  rw [row0_idx]
end

end Cert.KernelIdeal.DiceValue

end
-- ==== Proof.KAcc.lean ====
/-
  What the two accumulator arrays hold after the run. Image `b` owns block `b` of each array; its 32 row tiles are
  the grid points `32 b + j`; the block is written back once, after the image's last tile. So row 0 of block `b`
  ends at the sum over the 32 tiles of the tiles' contributions.
-/
import proofs.«414628_j16355235463504_3_alg».proof.Proof.KPieces
import Idealize.ShloMosaic.Lib.Pipeline.Value

noncomputable section

namespace Cert.KernelIdeal.DiceValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- The grid point of image `b`, row tile `j`. -/
def pt (b : Fin 4) (j : Fin 32) : Fin cfg0.N :=
  ⟨32 * b.val + j.val, by have := b.isLt; have := j.isLt; show _ < grid0.N; rw [N_0]; omega⟩

/-! ## The staging buffers' row 0 after each tile of an image -/

section Steps
variable (c : Dev nD) (cc : Fin 150) (t : Fin cfg0.N)

/-- At an image's first tile, row 0 of the first staging buffer holds the tile's contribution. -/
theorem outs_A_1 (h0 : t.val % 32 = 0) :
    ((outsAt0 (F := Ideal) m c t.val t.isLt).1 (ix3 0 0 cc) : EReal) = xsPart (iblk m c 0 t) (ix1 cc) := by
  rw [outsAt0_A m c t h0]
  dsimp only
  exact out_A_2_row0 c (grid0.coords t) (ms0_0 t) (hs0_0 t) (ms0_1 t) (hs0_1 t) (ms0_2 t) (hs0_2 t) (ms0_3 t) (hs0_3 t)
    (iblk m c 0 t) (iblk m c 1 t) ((hcond0_0 t).mpr h0) cc

theorem outs_A_2 (h0 : t.val % 32 = 0) :
    ((outsAt0 (F := Ideal) m c t.val t.isLt).2 (ix3 0 0 cc) : EReal) = inPart (iblk m c 0 t) (iblk m c 1 t) (ix1 cc) := by
  rw [outsAt0_A m c t h0]
  dsimp only
  exact out_A_3_row0 c (grid0.coords t) (ms0_0 t) (hs0_0 t) (ms0_1 t) (hs0_1 t) (ms0_2 t) (hs0_2 t) (ms0_3 t) (hs0_3 t)
    (iblk m c 0 t) (iblk m c 1 t) ((hcond0_0 t).mpr h0) cc

/-- At a later tile, row 0 holds what it held after the tile before plus the tile's contribution. -/
theorem outs_B_1 (h0 : ¬t.val % 32 = 0) :
    ((outsAt0 (F := Ideal) m c t.val t.isLt).1 (ix3 0 0 cc) : EReal)
      = ((outsAt0 (F := Ideal) m c (t.val - 1) (Nat.lt_of_le_of_lt (Nat.sub_le _ _) t.isLt)).1 (ix3 0 0 cc) : EReal)
        + xsPart (iblk m c 0 t) (ix1 cc) := by
  rw [outsAt0_B m c t h0]
  dsimp only
  exact out_B_2_row0 c (grid0.coords t) (ms0_0 t) (hs0_0 t) (ms0_1 t) (hs0_1 t) (ms0_2 t) (hs0_2 t) (ms0_3 t) (hs0_3 t)
    (iblk m c 0 t) (iblk m c 1 t) (fun h => h0 ((hcond0_0 t).mp h))
    (outsAt0 m c (t.val - 1) (Nat.lt_of_le_of_lt (Nat.sub_le _ _) t.isLt)).1
    (outsAt0 m c (t.val - 1) (Nat.lt_of_le_of_lt (Nat.sub_le _ _) t.isLt)).2 cc

theorem outs_B_2 (h0 : ¬t.val % 32 = 0) :
    ((outsAt0 (F := Ideal) m c t.val t.isLt).2 (ix3 0 0 cc) : EReal)
      = ((outsAt0 (F := Ideal) m c (t.val - 1) (Nat.lt_of_le_of_lt (Nat.sub_le _ _) t.isLt)).2 (ix3 0 0 cc) : EReal)
        + inPart (iblk m c 0 t) (iblk m c 1 t) (ix1 cc) := by
  rw [outsAt0_B m c t h0]
  dsimp only
  exact out_B_3_row0 c (grid0.coords t) (ms0_0 t) (hs0_0 t) (ms0_1 t) (hs0_1 t) (ms0_2 t) (hs0_2 t) (ms0_3 t) (hs0_3 t)
    (iblk m c 0 t) (iblk m c 1 t) (fun h => h0 ((hcond0_0 t).mp h))
    (outsAt0 m c (t.val - 1) (Nat.lt_of_le_of_lt (Nat.sub_le _ _) t.isLt)).1
    (outsAt0 m c (t.val - 1) (Nat.lt_of_le_of_lt (Nat.sub_le _ _) t.isLt)).2 cc
end Steps

/-- Tile `n`'s contribution to the sums of squares at class `cc`, the tile named by its number (zero past the grid). -/
def xsN (c : Dev nD) (cc : Fin 150) (n : ℕ) : EReal :=
  if h : n < cfg0.N then xsPart (iblk m c 0 ⟨n, h⟩) (ix1 cc) else 0

/-- Tile `n`'s contribution to the intersections at class `cc`. -/
def inN (c : Dev nD) (cc : Fin 150) (n : ℕ) : EReal :=
  if h : n < cfg0.N then inPart (iblk m c 0 ⟨n, h⟩) (iblk m c 1 ⟨n, h⟩) (ix1 cc) else 0

/-- The staging contents do not depend on how the point's number is written. -/
theorem outs_same (c : Dev nD) (u t : ℕ) (hu : u < cfg0.N) (ht : t < cfg0.N) (e : u = t) :
    outsAt0 (F := Ideal) m c u hu = outsAt0 m c t ht := by subst e; rfl

/-- After tile `j` of image `b`, row 0 of the first staging buffer holds the sum of the contributions of tiles `0 … j`. -/
theorem acc2 (c : Dev nD) (cc : Fin 150) (b : ℕ) : ∀ (j : ℕ) (hj : j < 32) (h : 32 * b + j < cfg0.N),
    ((outsAt0 (F := Ideal) m c (32 * b + j) h).1 (ix3 0 0 cc) : EReal)
      = ∑ s ∈ Finset.range (j + 1), xsN m c cc (32 * b + s)
  | 0, _, h => by
    rw [Finset.sum_range_one]
    refine (outs_A_1 m c cc ⟨32 * b + 0, h⟩ (by dsimp only; omega)).trans ?_
    unfold xsN; rw [dif_pos h]
  | j + 1, hj, h => by
    have hp : 32 * b + j < cfg0.N := by omega
    rw [Finset.sum_range_succ, ← acc2 c cc b j (by omega) hp]
    refine (outs_B_1 m c cc ⟨32 * b + (j + 1), h⟩ (by dsimp only; omega)).trans ?_
    rw [outs_same m c _ (32 * b + j) _ hp (by dsimp only; omega)]
    unfold xsN; rw [dif_pos h]

/-- The same for the second staging buffer and the intersections. -/
theorem acc3 (c : Dev nD) (cc : Fin 150) (b : ℕ) : ∀ (j : ℕ) (hj : j < 32) (h : 32 * b + j < cfg0.N),
    ((outsAt0 (F := Ideal) m c (32 * b + j) h).2 (ix3 0 0 cc) : EReal)
      = ∑ s ∈ Finset.range (j + 1), inN m c cc (32 * b + s)
  | 0, _, h => by
    rw [Finset.sum_range_one]
    refine (outs_A_2 m c cc ⟨32 * b + 0, h⟩ (by dsimp only; omega)).trans ?_
    unfold inN; rw [dif_pos h]
  | j + 1, hj, h => by
    have hp : 32 * b + j < cfg0.N := by omega
    rw [Finset.sum_range_succ, ← acc3 c cc b j (by omega) hp]
    refine (outs_B_2 m c cc ⟨32 * b + (j + 1), h⟩ (by dsimp only; omega)).trans ?_
    rw [outs_same m c _ (32 * b + j) _ hp (by dsimp only; omega)]
    unfold inN; rw [dif_pos h]

/-! ## The arrays after the run -/

/-- The block index of the first output window at a grid point: the image's number, then zeros. -/
theorem idx2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- The same for the second output window. -/
theorem idx3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- Two different points that write the first output back are the last tiles of two different images: their blocks
    share no element. -/
theorem disj2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (Fin.ext (by
    have h1 := (flush0_2 t).mp hf
    have h2 := (flush0_2 t').mp hf'
    have e : win0_2.index t 0 = win0_2.index t' 0 := congrFun h 0
    rw [(idx2 t).1, (idx2 t').1] at e
    omega))

theorem disj3 : ∀ t t' : Fin cfg0.N, (cfg0.win 3).flush t = true → (cfg0.win 3).flush t' = true → t ≠ t' →
    Disjoint ((cfg0.win 3).blk t).view.set ((cfg0.win 3).blk t').view.set :=
  fun t t' hf hf' hne => (cfg0.win 3).disjoint_blk fun h => hne (Fin.ext (by
    have h1 := (flush0_3 t).mp hf
    have h2 := (flush0_3 t').mp hf'
    have e : win0_3.index t 0 = win0_3.index t' 0 := congrFun h 0
    rw [(idx3 t).1, (idx3 t').1] at e
    omega))

/-- The last tile of image `b`. -/
abbrev lastPt (b : Fin 4) : Fin cfg0.N := pt b ⟨31, by omega⟩

theorem lastPt_val (b : Fin 4) : (lastPt b).val = 32 * b.val + 31 := rfl

/-- The sums-of-squares array after the run, at row 0 of image `b`: the sum of the 32 tiles' contributions. -/
theorem arr2_row0 (c : Dev nD) (b : Fin 4) (cc : Fin 150) :
    ((dats (F := Ideal) m 0 c).arrAt 2 cfg0.N : S4x8x150.Idx → EReal) (ix3 b 0 cc)
      = ∑ j : Fin 32, xsPart (iblk m c 0 (pt b j)) (ix1 cc) := by
  have hb := b.isLt
  have htv := lastPt_val b
  have hf : (cfg0.win 2).flush (lastPt b) = true := (flush0_2 (lastPt b)).mpr (by rw [htv]; omega)
  have h := (dats (F := Ideal) m 0 c).arrAt_emb_eq_flushed 2 disj2 (lastPt b) hf (ix3 0 0 cc : S1x8x150.Idx)
  have he : ((cfg0.win 2).blk (lastPt b)).view.emb (ix3 0 0 cc : S1x8x150.Idx) = (ix3 b 0 cc : S4x8x150.Idx) := by
    funext a
    apply Fin.ext
    match a with
    | ⟨0, _⟩ => show win0_2.index (lastPt b) 0 * 1 + 1 * 0 = b.val; rw [(idx2 (lastPt b)).1, htv]; omega
    | ⟨1, _⟩ => show win0_2.index (lastPt b) 1 * 8 + 1 * 0 = 0; rw [(idx2 (lastPt b)).2.1]
    | ⟨2, _⟩ => show win0_2.index (lastPt b) 2 * 150 + 1 * cc.val = cc.val; rw [(idx2 (lastPt b)).2.2]; omega
  refine (congrArg ((dats (F := Ideal) m 0 c).arrAt 2 cfg0.N) he).symm.trans (h.trans ?_)
  rw [cast_eq]
  show ((outsAt0 (F := Ideal) m c (lastPt b).val (lastPt b).isLt).1 (ix3 0 0 cc) : EReal) = _
  rw [outs_same m c _ (32 * b.val + 31) _ (by rw [← htv]; exact (lastPt b).isLt) htv, acc2 m c cc b.val 31 (by omega),
    Finset.sum_range]
  refine Finset.sum_congr rfl fun j _ => ?_
  unfold xsN
  rw [dif_pos (show 32 * b.val + j.val < cfg0.N from (pt b j).isLt)]
  rfl

/-- The intersections array after the run, at row 0 of image `b`. -/
theorem arr3_row0 (c : Dev nD) (b : Fin 4) (cc : Fin 150) :
    ((dats (F := Ideal) m 0 c).arrAt 3 cfg0.N : S4x8x150.Idx → EReal) (ix3 b 0 cc)
      = ∑ j : Fin 32, inPart (iblk m c 0 (pt b j)) (iblk m c 1 (pt b j)) (ix1 cc) := by
  have hb := b.isLt
  have htv := lastPt_val b
  have hf : (cfg0.win 3).flush (lastPt b) = true := (flush0_3 (lastPt b)).mpr (by rw [htv]; omega)
  have h := (dats (F := Ideal) m 0 c).arrAt_emb_eq_flushed 3 disj3 (lastPt b) hf (ix3 0 0 cc : S1x8x150.Idx)
  have he : ((cfg0.win 3).blk (lastPt b)).view.emb (ix3 0 0 cc : S1x8x150.Idx) = (ix3 b 0 cc : S4x8x150.Idx) := by
    funext a
    apply Fin.ext
    match a with
    | ⟨0, _⟩ => show win0_3.index (lastPt b) 0 * 1 + 1 * 0 = b.val; rw [(idx3 (lastPt b)).1, htv]; omega
    | ⟨1, _⟩ => show win0_3.index (lastPt b) 1 * 8 + 1 * 0 = 0; rw [(idx3 (lastPt b)).2.1]
    | ⟨2, _⟩ => show win0_3.index (lastPt b) 2 * 150 + 1 * cc.val = cc.val; rw [(idx3 (lastPt b)).2.2]; omega
  refine (congrArg ((dats (F := Ideal) m 0 c).arrAt 3 cfg0.N) he).symm.trans (h.trans ?_)
  rw [cast_eq]
  show ((outsAt0 (F := Ideal) m c (lastPt b).val (lastPt b).isLt).2 (ix3 0 0 cc) : EReal) = _
  rw [outs_same m c _ (32 * b.val + 31) _ (by rw [← htv]; exact (lastPt b).isLt) htv, acc3 m c cc b.val 31 (by omega),
    Finset.sum_range]
  refine Finset.sum_congr rfl fun j _ => ?_
  unfold inN
  rw [dif_pos (show 32 * b.val + j.val < cfg0.N from (pt b j).isLt)]
  rfl

end Cert.KernelIdeal.DiceValue

end
-- ==== Proof.KMath.lean ====
/-
  One tile's contributions, read as sums over the tile's pixels of the softmax of the whole logits array: the class
  axis lies wholly inside a tile, so the tile's softmax is the array's.
-/
import proofs.«414628_j16355235463504_3_alg».proof.Proof.KPieces
import Idealize.ShloMosaic.Lib.Pipeline.Value
import Idealize.ShloMosaic.Lib.ValueLayout
import Idealize.ShloMosaic.Lib.StableHlo.Predicate

noncomputable section

namespace Cert.KernelIdeal.DiceValue

open Cert.KernelIdeal Cert.KernelIdeal.Gen Idealize.ShloMosaic Idealize.ShloMosaic.ValueIdx
open Cert.Dice (prob row SX ST)
open scoped BigOperators

theorem cons4 (k : Fin 150) (r : Fin 16) (w : Fin 512) :
    (Fin.cons (⟨0, Nat.one_pos⟩ : Fin 1) (ix3 k r w : S150x16x512.Idx) : S1x150x16x512.Idx) = ix4 0 k r w := by
  funext a
  match a with
  | ⟨0, _⟩ => rfl
  | ⟨1, _⟩ => rfl
  | ⟨2, _⟩ => rfl
  | ⟨3, _⟩ => rfl

/-- The tile with its unit axis dropped, read at a class, a row and a column. -/
theorem drop_at (x0 : Vec Ideal S1x150x16x512 .f32) (k : Fin 150) (r : Fin 16) (w : Fin 512) :
    shapeCast S150x16x512 x0 shapeCasts_S1x150x16x512_S150x16x512 (ix3 k r w) = x0 (ix4 0 k r w) := by
  refine (shapeCast_dropUnit_apply ![150, 16, 512] x0 shapeCasts_S1x150x16x512_S150x16x512 (ix3 k r w)).trans ?_
  exact congrArg x0 (cons4 k r w)

/-- The sum over the class axis of a rank-3 array, read at a row and a column. -/
theorem red0_at (v : FVec Ideal S150x16x512 .f32) (hφ : FKind.Formats .f32)
    (hacc : (0x00000000#32 : BitVec 32) = FKind.add.neutral .f32 hφ) (r : Fin 16) (w : Fin 512) :
    multiReduction .add [0] S16x512 v 0x00000000#32 reduces_S150x16x512_S16x512 hφ hacc (ix2 r w)
      = ∑ k : Fin 150, v (ix3 k r w) := by
  refine (Ideal.multiReduction_add_single v _ reduces_S150x16x512_S16x512 hφ hacc (ix2 r w)).trans ?_
  refine Finset.sum_congr rfl fun k _ => congrArg v ?_
  funext a
  match a with
  | ⟨0, _⟩ => exact Fin.ext rfl
  | ⟨1, _⟩ => exact Fin.ext rfl
  | ⟨2, _⟩ => exact Fin.ext rfl

/-- The tile's probabilities in terms of the tile's entries: the exponential times the reciprocal of the sum of the
    exponentials over the class axis. -/
theorem pay4_at (x0 : Vec Ideal S1x150x16x512 .f32) (k : Fin 150) (r : Fin 16) (w : Fin 512) :
    k0_pay4 (F := Ideal) x0 (ix3 k r w)
      = Ideal.exp (x0 (ix4 0 k r w)) * Ideal.div (Ideal.ofBits .f32 0x3F800000#32) (∑ k' : Fin 150, Ideal.exp (x0 (ix4 0 k' r w))) := by
  unfold k0_pay4
  rw [mulf_apply]
  congr 1
  · show Ideal.exp (shapeCast S150x16x512 x0 shapeCasts_S1x150x16x512_S150x16x512 (ix3 k r w)) = _
    rw [drop_at]
  · refine (broadcastTo_apply _ broadcasts_S1x16x512_S150x16x512 (ix3 k r w) (ix3 0 r w) ?_).trans ?_
    · intro a
      match a with
      | ⟨0, _⟩ => rfl
      | ⟨1, _⟩ => rfl
      | ⟨2, _⟩ => rfl
    · rw [divf_apply, broadcast_apply]
      congr 1
      refine (shapeCast_addUnit_apply ![16, 512] _ shapeCasts_S16x512_S1x16x512 (ix3 0 r w)).trans ?_
      have e : (fun a : Fin 2 => (ix3 (0 : Fin 1) r w : S1x16x512.Idx) a.succ) = (ix2 r w : S16x512.Idx) := by
        funext a
        match a with
        | ⟨0, _⟩ => rfl
        | ⟨1, _⟩ => rfl
      rw [e]
      refine (red0_at _ _ _ r w).trans ?_
      refine Finset.sum_congr rfl fun k' _ => ?_
      show Ideal.exp (shapeCast S150x16x512 x0 shapeCasts_S1x150x16x512_S150x16x512 (ix3 k' r w)) = _
      rw [drop_at]

/-- The probabilities of a tile are those of the array at the tile's pixels. -/
theorem pay4_eq (x : SX.Idx → EReal) (b : Fin 4) (j : Fin 32) (x0 : Vec Ideal S1x150x16x512 .f32)
    (hx0 : ∀ (k : Fin 150) (r : Fin 16) (w : Fin 512), x0 (ix4 0 k r w) = x (ix4 b k (row j r) w))
    (k : Fin 150) (r : Fin 16) (w : Fin 512) :
    k0_pay4 (F := Ideal) x0 (ix3 k r w) = prob x (ix4 b k (row j r) w) := by
  rw [pay4_at, hx0]
  unfold prob Cert.Dice.expSum
  congr 2
  exact Finset.sum_congr rfl fun k' _ => congrArg Ideal.exp (hx0 k' r w)

/-- The sum over the rows of a rank-3 array, read at a class and a column. -/
theorem red1_at (v : FVec Ideal S150x16x512 .f32) (hφ : FKind.Formats .f32)
    (hacc : (0x00000000#32 : BitVec 32) = FKind.add.neutral .f32 hφ) (k : Fin 150) (w : Fin 512) :
    multiReduction .add [1] S150x512 v 0x00000000#32 reduces_S150x16x512_S150x512 hφ hacc (ix2 k w)
      = ∑ r : Fin 16, v (ix3 k r w) := by
  refine (Ideal.multiReduction_add_single v _ reduces_S150x16x512_S150x512 hφ hacc (ix2 k w)).trans ?_
  refine Finset.sum_congr rfl fun r _ => congrArg v ?_
  funext a
  match a with
  | ⟨0, _⟩ => exact Fin.ext rfl
  | ⟨1, _⟩ => exact Fin.ext rfl
  | ⟨2, _⟩ => exact Fin.ext rfl

/-- The sum over the columns of a rank-2 array, read at a class. -/
theorem red2_at (v : FVec Ideal S150x512 .f32) (hφ : FKind.Formats .f32)
    (hacc : (0x00000000#32 : BitVec 32) = FKind.add.neutral .f32 hφ) (k : Fin 150) :
    multiReduction .add [1] S150 v 0x00000000#32 reduces_S150x512_S150 hφ hacc (ix1 k)
      = ∑ w : Fin 512, v (ix2 k w) := by
  refine (Ideal.multiReduction_add_single v _ reduces_S150x512_S150 hφ hacc (ix1 k)).trans ?_
  refine Finset.sum_congr rfl fun w _ => congrArg v ?_
  funext a
  match a with
  | ⟨0, _⟩ => exact Fin.ext rfl
  | ⟨1, _⟩ => exact Fin.ext rfl

/-- A tile's sums of squares. -/
theorem xsPart_eq (x : SX.Idx → EReal) (b : Fin 4) (j : Fin 32) (x0 : Vec Ideal S1x150x16x512 .f32)
    (hx0 : ∀ (k : Fin 150) (r : Fin 16) (w : Fin 512), x0 (ix4 0 k r w) = x (ix4 b k (row j r) w)) (cc : Fin 150) :
    xsPart x0 (ix1 cc) = ∑ w : Fin 512, ∑ r : Fin 16, prob x (ix4 b cc (row j r) w) * prob x (ix4 b cc (row j r) w) := by
  unfold xsPart
  refine (red2_at _ _ _ cc).trans ?_
  refine Finset.sum_congr rfl fun w _ => ?_
  refine (red1_at _ _ _ cc w).trans ?_
  refine Finset.sum_congr rfl fun r _ => ?_
  rw [mulf_apply, pay4_eq x b j x0 hx0]

/-- The labels, cast to rank 2 and back and broadcast along the class axis, read at a class, a row and a column. -/
theorem lab_at (x1 : Vec Ideal S1x16x512 .i32) (k : Fin 150) (r : Fin 16) (w : Fin 512) :
    broadcastTo S150x16x512
        (shapeCast S1x16x512 (shapeCast S16x512 (x1 : S1x16x512.Idx → BitVec 32) shapeCasts_S1x16x512_S16x512) shapeCasts_S16x512_S1x16x512)
        broadcasts_S1x16x512_S150x16x512 (ix3 k r w)
      = (x1 : S1x16x512.Idx → BitVec 32) (ix3 0 r w) := by
  rw [shapeCast_shapeCast]
  refine broadcastTo_apply _ broadcasts_S1x16x512_S150x16x512 (ix3 k r w) (ix3 0 r w) ?_
  intro a
  match a with
  | ⟨0, _⟩ => rfl
  | ⟨1, _⟩ => rfl
  | ⟨2, _⟩ => rfl

/-- The class counter read at a class, a row and a column is the class. -/
theorem iota_at (k : Fin 150) (r : Fin 16) (w : Fin 512) :
    iota .tc S150x16x512 32 [0] iota_S150x16x512_d0_w32 (ix3 k r w) = BitVec.ofNat 32 k.val :=
  iota_single_apply .tc S150x16x512 32 0 iota_S150x16x512_d0_w32 (ix3 k r w)

/-- A tile's intersection sums: the probability of class `cc` at the tile's pixels labelled `cc`. -/
theorem inPart_eq (x : SX.Idx → EReal) (l : ST.Idx → BitVec 32) (b : Fin 4) (j : Fin 32)
    (x0 : Vec Ideal S1x150x16x512 .f32) (x1 : Vec Ideal S1x16x512 .i32)
    (hx0 : ∀ (k : Fin 150) (r : Fin 16) (w : Fin 512), x0 (ix4 0 k r w) = x (ix4 b k (row j r) w))
    (hx1 : ∀ (r : Fin 16) (w : Fin 512), (x1 : S1x16x512.Idx → BitVec 32) (ix3 0 r w) = l (ix3 b (row j r) w)) (cc : Fin 150) :
    inPart x0 x1 (ix1 cc)
      = ∑ w : Fin 512, ∑ r : Fin 16, if l (ix3 b (row j r) w) = BitVec.ofNat 32 cc.val then prob x (ix4 b cc (row j r) w) else 0 := by
  show k0_pay5 (F := Ideal) x0 x1 (ix1 cc) = _
  unfold k0_pay5
  refine (red2_at _ _ _ cc).trans ?_
  refine Finset.sum_congr rfl fun w _ => ?_
  refine (red1_at _ _ _ cc w).trans ?_
  refine Finset.sum_congr rfl fun r _ => ?_
  rw [select_apply, pay4_eq x b j x0 hx0, broadcast_apply]
  have hc : cmpi CmpIPredicate.eq (iota Kind.tc S150x16x512 32 [0] iota_S150x16x512_d0_w32)
        (broadcastTo S150x16x512
          (shapeCast S1x16x512 (shapeCast S16x512 (x1 : S1x16x512.Idx → BitVec 32) shapeCasts_S1x16x512_S16x512) shapeCasts_S16x512_S1x16x512)
          broadcasts_S1x16x512_S150x16x512)
        (ix3 cc r w)
      = IntOp.cmpi .eq (BitVec.ofNat 32 cc.val) (l (ix3 b (row j r) w)) := by
    show IntOp.cmpi .eq _ _ = _
    rw [iota_at, lab_at, hx1]
  rw [hc]
  by_cases h : l (ix3 b (row j r) w) = BitVec.ofNat 32 cc.val
  · rw [if_pos h, StableHlo.Predicate.cmpi_eq_iff.2 h.symm, select_one]
  · have h' : ¬IntOp.cmpi .eq (BitVec.ofNat 32 cc.val) (l (ix3 b (row j r) w)) = 1#1 := fun e => h (StableHlo.Predicate.cmpi_eq_iff.1 e).symm
    rw [if_neg h, eq_zero_of_ne_one h', select_zero]
    exact Ideal.ofBits_zero_f32

end Cert.KernelIdeal.DiceValue

end
-- ==== Proof.KBlocks.lean ====
/-
  What the two input windows hold at a grid point: tile `j` of image `b` of the logits, and of the labels with the
  ignore value already read as class 0 (the host prepares that array before the launch).
-/
import proofs.«414628_j16355235463504_3_alg».proof.Proof.KAcc
import Idealize.ShloMosaic.Lib.Pipeline.Value
import Idealize.ShloMosaic.Lib.StableHlo.Run

noncomputable section

namespace Cert.KernelIdeal.DiceValue

open Cert.KernelIdeal Cert.KernelIdeal.Gen Idealize.ShloMosaic Idealize.ShloMosaic.TcCoe Idealize.ShloMosaic.ValueIdx Idealize.SL.Sem
open Cert.Dice (lab row)

variable (m : (ℓ : Loc nD τ sig) → Buf (Elt Ideal) ℓ)

/-- The array of labels the launch reads is the label input with 255 read as 0. -/
theorem V_labels (c : Dev nD) : (V m c main_v2 : S4x512x512.Idx → BitVec 32) = lab (m ((c.tc : Thread nD τ).loc main_arg1)) := by
  -- the host lines before the launch: compare with 255, then select between the label and a broadcast 0
  funext p
  dsimp only [V, V0]
  simp only [hostOps0, hostOps0_1, List.flatten_cons, List.flatten_nil, List.append_nil, List.cons_append, List.nil_append]
  after_results
  rfl

/-- The logits window at image `b`, tile `j`. -/
theorem iblk0_apply (c : Dev nD) (b : Fin 4) (j : Fin 32) (k : Fin 150) (r : Fin 16) (w : Fin 512) :
    (iblk m c 0 (pt b j) : S1x150x16x512.Idx → EReal) (ix4 0 k r w)
      = (m ((c.tc : Thread nD τ).loc main_arg0) : S4x150x512x512.Idx → EReal) (ix4 b k (row j r) w) := by
  -- the block index at point t is (t / 32, 0, t % 32, 0); at t = 32 b + j the block of extents 1 x 150 x 16 x 512
  -- starts at (b, 0, 16 j, 0)
  have hi : ∀ t : Fin cfg0.N, win0_0.index t 0 = t.val / 32 ∧ win0_0.index t 1 = 0
      ∧ win0_0.index t 2 = t.val % 32 ∧ win0_0.index t 3 = 0 :=
    (by decide +kernel : ∀ t : Fin grid0.N, win0_0.index t 0 = t.val / 32 ∧ win0_0.index t 1 = 0
      ∧ win0_0.index t 2 = t.val % 32 ∧ win0_0.index t 3 = 0)
  obtain ⟨h0, h1, h2, h3⟩ := hi (pt b j)
  have hp : (pt b j).val = 32 * b.val + j.val := rfl
  unfold iblk
  rw [View.read_apply]
  show V m c main_arg0 _ = m (c.tc.loc main_arg0) _
  rw [V_main_arg0]
  congr 1
  funext a
  apply Fin.ext
  match a with
  | ⟨0, _⟩ => show win0_0.index (pt b j) 0 * 1 + 1 * 0 = b.val; rw [h0, hp]; omega
  | ⟨1, _⟩ => show win0_0.index (pt b j) 1 * 150 + 1 * k.val = k.val; rw [h1]; omega
  | ⟨2, _⟩ => show win0_0.index (pt b j) 2 * 16 + 1 * r.val = 16 * j.val + r.val; rw [h2, hp]; omega
  | ⟨3, _⟩ => show win0_0.index (pt b j) 3 * 512 + 1 * w.val = w.val; rw [h3]; omega

/-- The labels window at image `b`, tile `j`. -/
theorem iblk1_apply (c : Dev nD) (b : Fin 4) (j : Fin 32) (r : Fin 16) (w : Fin 512) :
    (iblk m c 1 (pt b j) : S1x16x512.Idx → BitVec 32) (ix3 0 r w)
      = lab (m ((c.tc : Thread nD τ).loc main_arg1)) (ix3 b (row j r) w) := by
  -- the block index at point t is (t / 32, t % 32, 0); at t = 32 b + j the block of extents 1 x 16 x 512
  -- starts at (b, 16 j, 0)
  have hi : ∀ t : Fin cfg0.N, win0_1.index t 0 = t.val / 32 ∧ win0_1.index t 1 = t.val % 32
      ∧ win0_1.index t 2 = 0 :=
    (by decide +kernel : ∀ t : Fin grid0.N, win0_1.index t 0 = t.val / 32 ∧ win0_1.index t 1 = t.val % 32
      ∧ win0_1.index t 2 = 0)
  obtain ⟨h0, h1, h2⟩ := hi (pt b j)
  have hp : (pt b j).val = 32 * b.val + j.val := rfl
  unfold iblk
  rw [View.read_apply]
  show (V m c main_v2 : S4x512x512.Idx → BitVec 32) _ = _
  rw [V_labels]
  congr 1
  funext a
  apply Fin.ext
  match a with
  | ⟨0, _⟩ => show win0_1.index (pt b j) 0 * 1 + 1 * 0 = b.val; rw [h0, hp]; omega
  | ⟨1, _⟩ => show win0_1.index (pt b j) 1 * 16 + 1 * r.val = 16 * j.val + r.val; rw [h1, hp]; omega
  | ⟨2, _⟩ => show win0_1.index (pt b j) 2 * 512 + 1 * w.val = w.val; rw [h2]; omega

end Cert.KernelIdeal.DiceValue

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.Regroup.lean ====
/-
  The 512 rows of an image are 32 tiles of 16 rows: a sum over (tile, column, row in the tile) is the sum over
  (row, column).
-/
import proofs.«414628_j16355235463504_3_alg».proof.Proof.Spec
import proofs.«414628_j16355235463504_3_alg».proof.Proof.LibSums

noncomputable section

namespace Cert.Dice

open Idealize.ShloMosaic
open scoped BigOperators

/-- Row `r` of tile `j` is row `16 j + r`: summing over the tiles and the rows of a tile is summing over all rows. -/
theorem sum_tiles (f : Fin 512 → Fin 512 → EReal) :
    ∑ j : Fin 32, ∑ w : Fin 512, ∑ r : Fin 16, f (row j r) w = ∑ h : Fin 512, ∑ w : Fin 512, f h w := by
  -- the row sums, as a function of the row number
  let g : ℕ → EReal := fun n => if h : n < 512 then ∑ w : Fin 512, f ⟨n, h⟩ w else 0
  have hrow : ∀ (j : Fin 32) (r : Fin 16), ∑ w : Fin 512, f (row j r) w = g (j.val * 16 + r.val) := by
    intro j r
    have hlt : j.val * 16 + r.val < 512 := by have := j.isLt; have := r.isLt; omega
    have hr : row j r = ⟨j.val * 16 + r.val, hlt⟩ := Fin.ext (by show 16 * j.val + r.val = j.val * 16 + r.val; omega)
    show _ = dite _ _ _
    rw [dif_pos hlt, hr]
  have hg : ∀ h : Fin 512, g h.val = ∑ w : Fin 512, f h w := by
    intro h
    show dite _ _ _ = _
    rw [dif_pos h.isLt]
  calc ∑ j : Fin 32, ∑ w : Fin 512, ∑ r : Fin 16, f (row j r) w
      = ∑ j : Fin 32, ∑ r : Fin 16, ∑ w : Fin 512, f (row j r) w :=
        Finset.sum_congr rfl fun j _ => Finset.sum_comm
    _ = ∑ j : Fin 32, ∑ r : Fin 16, g (j.val * 16 + r.val) :=
        Finset.sum_congr rfl fun j _ => Finset.sum_congr rfl fun r _ => hrow j r
    _ = ∑ i : Fin (32 * 16), g i.val := Cert.LibSums.sum_blocks 32 16 g
    _ = ∑ h : Fin 512, g h.val := rfl
    _ = ∑ h : Fin 512, ∑ w : Fin 512, f h w := Finset.sum_congr rfl fun h _ => hg h

end Cert.Dice

end
-- ==== Proof.KHost.lean ====
/-
  The host's part of the kernel's program, after the launch: it takes row 0 of every image's block of the two
  accumulator arrays, adds it over the four images, counts the pixels of every label, and forms the dice vector and
  the loss. Read here over any contents of the three arrays those lines read.
-/
import proofs.«414628_j16355235463504_3_alg».proof.Proof.Gen.KernelIdeal.Frame
import proofs.«414628_j16355235463504_3_alg».proof.Proof.Spec
import Idealize.ShloMosaic.Lib.Pipeline.Value
import Idealize.ShloMosaic.Lib.StableHlo.Run
import Idealize.ShloMosaic.PureOps.Ideal.Laws

noncomputable section

namespace Cert.KernelIdeal.DiceValue

open Cert.KernelIdeal Cert.KernelIdeal.Gen Idealize.ShloMosaic Idealize.ShloMosaic.TcCoe Idealize.ShloMosaic.ValueIdx Idealize.SL.Sem
open scoped BigOperators

/-- What the host makes of an accumulator array: row 0 of every image's block, added over the four images. -/
def rowsum (A : S4x8x150.Idx → EReal) : FVec Ideal S150 .f32 :=
  Host.reduceAdd (F := Ideal)
    (shapeCast S4x150 (extractStridedSlice S4x1x150 ![0, 0, 0] A slices_S4x8x150_S4x1x150_0_0_0) shapeCasts_S4x1x150_S4x150)
    (constant (F := Ideal) S_ .f32 0x00000000#32) reducesTo_S4x150_S150_d0 h_S_

theorem rowsum_apply (A : S4x8x150.Idx → EReal) (cc : Fin 150) : rowsum A (ix1 cc) = ∑ b : Fin 4, A (ix3 b 0 cc) := by
  have hr : S4x150.Reduces [(0 : Fin 2)] S150 := by decide
  have hl : ∀ b : Fin 4, hr.lift (ix1 cc) b = ix2 b cc := fun b =>
    funext fun a => Fin.ext (by match a with | ⟨0, _⟩ => rfl | ⟨1, _⟩ => rfl)
  unfold rowsum
  simp only [Host.reduceAdd, Ideal.hostReduceAdd_def]
  rw [Ideal.hostReduceAdd_single reducesTo_S4x150_S150_d0 hr,
    show constant (F := Ideal) S_ FTy.f32 (0#32) (Shape.Idx.first h_S_) = (0 : EReal) from Ideal.ofBits_zero_f32, zero_add]
  show ∑ b : Fin 4, shapeCast S4x150 (extractStridedSlice S4x1x150 ![0, 0, 0] A slices_S4x8x150_S4x1x150_0_0_0)
      shapeCasts_S4x1x150_S4x150 (hr.lift (ix1 cc) b) = ∑ b : Fin 4, A (ix3 b 0 cc)
  refine Finset.sum_congr rfl fun (b : Fin 4) _ => ?_
  rw [hl b]
  refine (shapeCast_apply _ shapeCasts_S4x1x150_S4x150 (ix2 b cc) (ix3 b 0 cc) (by
    rw [Shape.rowMajor_val_three, Shape.rowMajor_val_two]
    show (b.val * 1 + 0) * 150 + cc.val = b.val * 150 + cc.val
    omega)).trans ?_
  exact extractStridedSlice_apply _ A _ (ix3 b 0 cc) (ix3 b 0 cc) fun a => by
    match a with
    | ⟨0, _⟩ => show b.val = 0 + b.val; omega
    | ⟨1, _⟩ => rfl
    | ⟨2, _⟩ => show cc.val = 0 + cc.val; omega

set_option maxHeartbeats 1600000 in
/-- The host lines after the launch, over any contents `W` of the buffers they read: the dice vector. -/
theorem tail_dice_W (W : Valuation τ sig (Elt Ideal)) :
    (StableHlo.after (hostOps1 (F := Ideal)) W (Proc.devRef .tc main_v27) : S150.Idx → EReal)
      = Cert.Dice.dice bcast_S_S150 (rowsum (W (Proc.devRef .tc main_v3_0))) (rowsum (W (Proc.devRef .tc main_v3_1)))
          (Cert.Dice.ysum shapeCasts_S4x512x512_S1048576 bcast_S_S1048576 bcast_S1048576_S1048576x1_0 bcast_S_S150
            (W (Proc.devRef .tc main_v2))) := by
  after_results
  rfl

set_option maxHeartbeats 1600000 in
/-- The same lines' loss. -/
theorem tail_loss_W (W : Valuation τ sig (Elt Ideal)) :
    (StableHlo.after (hostOps1 (F := Ideal)) W (Proc.devRef .tc main_v31) : S_.Idx → EReal)
      = Cert.Dice.loss bcast_S_S150 reducesTo_S150_S_d0 h_S_
          (Cert.Dice.dice bcast_S_S150 (rowsum (W (Proc.devRef .tc main_v3_0))) (rowsum (W (Proc.devRef .tc main_v3_1)))
            (Cert.Dice.ysum shapeCasts_S4x512x512_S1048576 bcast_S_S1048576 bcast_S1048576_S1048576x1_0 bcast_S_S150
              (W (Proc.devRef .tc main_v2)))) := by
  after_results
  rfl

end Cert.KernelIdeal.DiceValue

end
-- ==== Proof.KTail.lean ====
/-
  The kernel's results. The two accumulator arrays hold, at row 0 of image `b`, that image's sums over all its pixels;
  the host adds row 0 over the four images, counts the pixels of every label, and forms the dice vector and the loss.
-/
import proofs.«414628_j16355235463504_3_alg».proof.Proof.KAcc
import proofs.«414628_j16355235463504_3_alg».proof.Proof.KMath
import proofs.«414628_j16355235463504_3_alg».proof.Proof.KBlocks
import proofs.«414628_j16355235463504_3_alg».proof.Proof.Regroup
import proofs.«414628_j16355235463504_3_alg».proof.Proof.KHost
import Idealize.ShloMosaic.Lib.Pipeline.Value
import Idealize.ShloMosaic.Lib.StableHlo.Run
import Idealize.ShloMosaic.PureOps.Ideal.Laws

noncomputable section

namespace Cert.KernelIdeal.DiceValue

open Cert.KernelIdeal Cert.KernelIdeal.Gen Idealize.ShloMosaic Idealize.ShloMosaic.TcCoe Idealize.ShloMosaic.ValueIdx Idealize.SL.Sem
open Idealize.ShloMosaic.Pipeline (Dat)
open Cert.Dice (prob lab row xs it xsV itV)
open scoped BigOperators

variable (m : (ℓ : Loc nD τ sig) → Buf (Elt Ideal) ℓ) (ρ : Dev nD → PrngReg)

/-- The logits and the labels as the run finds them. -/
abbrev xin (c : Dev nD) : S4x150x512x512.Idx → EReal := m ((c.tc : Thread nD τ).loc main_arg0)
abbrev tin (c : Dev nD) : S4x512x512.Idx → BitVec 32 := m ((c.tc : Thread nD τ).loc main_arg1)

/-- Row 0 of image `b` of the sums-of-squares array: the image's sum over rows and columns of the squared probability. -/
theorem arr2_eq (c : Dev nD) (b : Fin 4) (cc : Fin 150) :
    ((dats (F := Ideal) m 0 c).arrAt 2 cfg0.N : S4x8x150.Idx → EReal) (ix3 b 0 cc)
      = ∑ h : Fin 512, ∑ w : Fin 512, prob (xin m c) (ix4 b cc h w) * prob (xin m c) (ix4 b cc h w) := by
  rw [arr2_row0]
  rw [Finset.sum_congr rfl fun j _ =>
    xsPart_eq (xin m c) b j (iblk m c 0 (pt b j)) (fun k r w => iblk0_apply m c b j k r w) cc]
  exact Cert.Dice.sum_tiles fun h w => prob (xin m c) (ix4 b cc h w) * prob (xin m c) (ix4 b cc h w)

/-- Row 0 of image `b` of the intersections array: the image's sum of the probability of class `cc` over the pixels
    labelled `cc`. -/
theorem arr3_eq (c : Dev nD) (b : Fin 4) (cc : Fin 150) :
    ((dats (F := Ideal) m 0 c).arrAt 3 cfg0.N : S4x8x150.Idx → EReal) (ix3 b 0 cc)
      = ∑ h : Fin 512, ∑ w : Fin 512,
          if lab (tin m c) (ix3 b h w) = BitVec.ofNat 32 cc.val then prob (xin m c) (ix4 b cc h w) else 0 := by
  rw [arr3_row0]
  rw [Finset.sum_congr rfl fun j _ =>
    inPart_eq (xin m c) (lab (tin m c)) b j (iblk m c 0 (pt b j)) (iblk m c 1 (pt b j))
      (fun k r w => iblk0_apply m c b j k r w) (fun r w => iblk1_apply m c b j r w) cc]
  exact Cert.Dice.sum_tiles fun h w =>
    if lab (tin m c) (ix3 b h w) = BitVec.ofNat 32 cc.val then prob (xin m c) (ix4 b cc h w) else 0

/-- The two accumulator arrays after the run, at their literal type. -/
def sqArr (c : Dev nD) : S4x8x150.Idx → EReal := (dats (F := Ideal) m 0 c).arrAt 2 cfg0.N
def inArr (c : Dev nD) : S4x8x150.Idx → EReal := (dats (F := Ideal) m 0 c).arrAt 3 cfg0.N

theorem sqArr_apply (c : Dev nD) (b : Fin 4) (cc : Fin 150) :
    sqArr m c (ix3 b 0 cc)
      = ∑ h : Fin 512, ∑ w : Fin 512, prob (xin m c) (ix4 b cc h w) * prob (xin m c) (ix4 b cc h w) :=
  arr2_eq m c b cc

theorem inArr_apply (c : Dev nD) (b : Fin 4) (cc : Fin 150) :
    inArr m c (ix3 b 0 cc)
      = ∑ h : Fin 512, ∑ w : Fin 512,
          if lab (tin m c) (ix3 b h w) = BitVec.ofNat 32 cc.val then prob (xin m c) (ix4 b cc h w) else 0 :=
  arr3_eq m c b cc

/-- The arrays as the host lines after the launch find them. -/
abbrev Wt (c : Dev nD) : Valuation τ sig (Elt Ideal) :=
  Pipeline.withArrays spec0 c (V0 m c) fun w => (dats (F := Ideal) m 0 c).arrAt w cfg0.N

theorem Wt_2 (c : Dev nD) : Wt m c (Proc.devRef .tc main_v3_0) = sqArr m c :=
  Pipeline.withArrays_arr spec0 launch0.win.arr_inj c _ _ 2
theorem Wt_3 (c : Dev nD) : Wt m c (Proc.devRef .tc main_v3_1) = inArr m c :=
  Pipeline.withArrays_arr spec0 launch0.win.arr_inj c _ _ 3
theorem Wt_1 (c : Dev nD) : (Wt m c (Proc.devRef .tc main_v2) : S4x512x512.Idx → BitVec 32) = lab (tin m c) :=
  (Pipeline.withArrays_arr spec0 launch0.win.arr_inj c _ _ 1).trans
    (((dats (F := Ideal) m 0 c).arrAt_in 1 rfl _).trans ((A_eq m c 1).trans (V_labels m c)))

/-- The host's sum of the sums-of-squares array is the per-class sum over all pixels of the squared probability. -/
theorem xs_fin (c : Dev nD) : rowsum (sqArr m c) = xsV (xin m c) := by
  funext j
  obtain ⟨cc, rfl⟩ : ∃ cc : Fin 150, j = ix1 cc := ⟨j 0, eq_ix1 j⟩
  rw [rowsum_apply]
  exact Finset.sum_congr rfl fun b _ => sqArr_apply m c b cc

/-- The host's sum of the intersections array is the per-class sum of the probability over the pixels of that label. -/
theorem it_fin (c : Dev nD) : rowsum (inArr m c) = itV (xin m c) (lab (tin m c)) := by
  funext j
  obtain ⟨cc, rfl⟩ : ∃ cc : Fin 150, j = ix1 cc := ⟨j 0, eq_ix1 j⟩
  rw [rowsum_apply]
  exact Finset.sum_congr rfl fun b _ => inArr_apply m c b cc

/-- The dice vector of the inputs, in the words of the specification. -/
abbrev diceOf (c : Dev nD) : FVec Ideal S150 .f32 :=
  Cert.Dice.dice bcast_S_S150 (xsV (xin m c)) (itV (xin m c) (lab (tin m c)))
    (Cert.Dice.ysum shapeCasts_S4x512x512_S1048576 bcast_S_S1048576 bcast_S1048576_S1048576x1_0 bcast_S_S150 (lab (tin m c)))

/-- Every execution of the kernel's program ends with the loss and the dice vector of the specification, the inputs
    unchanged. -/
theorem run : θ_run defs (onTc (τ := τ) (main (F := Ideal))) ⟨m, fun _ => 0, ρ⟩ fun r => ∀ c : Dev nD,
      r.2.mem ((c.tc : Thread nD τ).loc main_v31) = Cert.Dice.loss bcast_S_S150 reducesTo_S150_S_d0 h_S_ (diceOf m c)
      ∧ r.2.mem ((c.tc : Thread nD τ).loc main_v27) = diceOf m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_, ?_⟩) (run_main m ρ)
  · refine ((h c).2 main_v31 (Pipeline.mem_restRefs_of main_v31 (by decide) (by decide))).trans ?_
    show StableHlo.after hostOps1 (Wt m c) (Proc.devRef .tc main_v31) = _
    refine (tail_loss_W (Wt m c)).trans ?_
    rw [Wt_2, Wt_3, Wt_1, xs_fin, it_fin]
  · refine ((h c).2 main_v27 (Pipeline.mem_restRefs_of main_v27 (by decide) (by decide))).trans ?_
    show StableHlo.after hostOps1 (Wt m c) (Proc.devRef .tc main_v27) = _
    refine (tail_dice_W (Wt m c)).trans ?_
    rw [Wt_2, Wt_3, Wt_1, xs_fin, it_fin]
  · exact ((h c).1 0).trans (((dats (F := Ideal) m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.DiceValue

end
-- ==== Proof.RefRun.lean ====
/-
  The reference's run, read stage by stage: every execution ends with the loss and the dice vector at the composition
  of the program's operations applied to the two inputs, and leaves the inputs as they were.
-/
import proofs.«414628_j16355235463504_3_alg».proof.Proof.RefOps
import proofs.«414628_j16355235463504_3_alg».proof.Proof.RefRead
import Idealize.ShloMosaic.Lib.StableHlo.Run
import Idealize.ShloMosaic.Lib.Pipeline.Frame

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The program's operations 0 to 6, in order, each called function's operation over the plain references. -/
abbrev ch1 : List (HloOp τ sig (Elt F)) :=
  [
    nullary main_c (constantI S_ 32 255#32),
    unary main_c main_v0 (broadcastInDim S4x512x512 ![] bcast_S_S4x512x512 : (⟨S_, .i32⟩ : BufTy).Contents (Elt F) → (⟨S4x512x512, .i32⟩ : BufTy).Contents (Elt F)),
    binary main_arg1 main_v0 main_v1 (cmpi .ne : (⟨S4x512x512, .i32⟩ : BufTy).Contents (Elt F) → (⟨S4x512x512, .i32⟩ : BufTy).Contents (Elt F) → (⟨S4x512x512, .i1⟩ : BufTy).Contents (Elt F)),
    nullary main_c_0 (constantI S_ 32 0#32),
    unary main_c_0 main_call0_v0 (id : (⟨S_, .i32⟩ : BufTy).Contents (Elt F) → (⟨S_, .i32⟩ : BufTy).Contents (Elt F)),
    unary main_call0_v0 main_call0_v1 ((broadcastInDim S4x512x512 ![] bcast_S_S4x512x512) : (⟨S_, .i32⟩ : BufTy).Contents (Elt F) → (⟨S4x512x512, .i32⟩ : BufTy).Contents (Elt F)),
    ternary main_v1 main_arg1 main_call0_v1 main_v2 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)) ]

/-- From any contents that hold the first input, the second input at their stages, operations 0 to 6 leave the first input, the second input, `main_v2` at their stages:
    each operation writes one function of earlier buffers, and a stage is that function of earlier stages. -/
theorem ch1_spec (W : Valuation τ sig (Elt F)) (x0 : (⟨S4x150x512x512, .f32⟩ : BufTy).Contents (Elt F)) (x1 : (⟨S4x512x512, .i32⟩ : BufTy).Contents (Elt F))
    (h_main_arg0 : W (Proc.devRef .tc main_arg0 : DevRef τ sig) = x0)
    (h_main_arg1 : W (Proc.devRef .tc main_arg1 : DevRef τ sig) = x1) :
    after (ch1 (F := F)) W (Proc.devRef .tc main_arg0 : DevRef τ sig) = x0
    ∧ after (ch1 (F := F)) W (Proc.devRef .tc main_arg1 : DevRef τ sig) = x1
    ∧ after (ch1 (F := F)) W (Proc.devRef .tc main_v2 : DevRef τ sig) = val_main_v2 (F := F) x1 := by
  refine ⟨?_, ?_, ?_⟩
  · after_results_simp
    exact h_main_arg0
  · after_results_simp
    exact h_main_arg1
  · after_results_simp
    rw [h_main_arg1]
    rfl

/-- The program's operations 7 to 15, in order, each called function's operation over the plain references. -/
abbrev ch2 : List (HloOp τ sig (Elt F)) :=
  [
    nullary main_cst (constant S_ .f32 0xFF800000#32),
    binary main_arg0 main_cst main_v3 ((fun x v => Host.reduce FloatOps.maximumf x v reducesTo_S4x150x512x512_S4x512x512_d1 h_S_) : (⟨S4x150x512x512, .f32⟩ : BufTy).Contents (Elt F) → (⟨S_, .f32⟩ : BufTy).Contents (Elt F) → (⟨S4x512x512, .f32⟩ : BufTy).Contents (Elt F)),
    nullary main_cst_1 (constant S_ .f32 0xFF800000#32),
    unary main_cst_1 main_v4 (broadcastInDim S4x512x512 ![] bcast_S_S4x512x512 : (⟨S_, .f32⟩ : BufTy).Contents (Elt F) → (⟨S4x512x512, .f32⟩ : BufTy).Contents (Elt F)),
    binary main_v4 main_v3 main_v5 (maximumf : (⟨S4x512x512, .f32⟩ : BufTy).Contents (Elt F) → (⟨S4x512x512, .f32⟩ : BufTy).Contents (Elt F) → (⟨S4x512x512, .f32⟩ : BufTy).Contents (Elt F)),
    unary main_v5 main_v6 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v6 main_v7 (broadcastInDim S4x150x512x512 ![0, 1, 2, 3] bcast_S4x1x512x512_S4x150x512x512_0_1_2_3 : (⟨S4x1x512x512, .f32⟩ : BufTy).Contents (Elt F) → (⟨S4x150x512x512, .f32⟩ : BufTy).Contents (Elt F)),
    binary main_arg0 main_v7 main_v8 (subf : (⟨S4x150x512x512, .f32⟩ : BufTy).Contents (Elt F) → (⟨S4x150x512x512, .f32⟩ : BufTy).Contents (Elt F) → (⟨S4x150x512x512, .f32⟩ : BufTy).Contents (Elt F)),
    unary main_v8 main_v9 (Host.exp : (⟨S4x150x512x512, .f32⟩ : BufTy).Contents (Elt F) → (⟨S4x150x512x512, .f32⟩ : BufTy).Contents (Elt F)) ]

/-- From any contents that hold the first input, the second input, `main_v2` at their stages, operations 7 to 15 leave the first input, the second input, `main_v2`, `main_v9` at their stages:
    each operation writes one function of earlier buffers, and a stage is that function of earlier stages. -/
theorem ch2_spec (W : Valuation τ sig (Elt F)) (x0 : (⟨S4x150x512x512, .f32⟩ : BufTy).Contents (Elt F)) (x1 : (⟨S4x512x512, .i32⟩ : BufTy).Contents (Elt F))
    (h_main_arg0 : W (Proc.devRef .tc main_arg0 : DevRef τ sig) = x0)
    (h_main_arg1 : W (Proc.devRef .tc main_arg1 : DevRef τ sig) = x1)
    (h_main_v2 : W (Proc.devRef .tc main_v2 : DevRef τ sig) = val_main_v2 (F := F) x1) :
    after (ch2 (F := F)) W (Proc.devRef .tc main_arg0 : DevRef τ sig) = x0
    ∧ after (ch2 (F := F)) W (Proc.devRef .tc main_arg1 : DevRef τ sig) = x1
    ∧ after (ch2 (F := F)) W (Proc.devRef .tc main_v2 : DevRef τ sig) = val_main_v2 (F := F) x1
    ∧ after (ch2 (F := F)) W (Proc.devRef .tc main_v9 : DevRef τ sig) = val_main_v9 (F := F) x0 := by
  refine ⟨?_, ?_, ?_, ?_⟩
  · after_results_simp
    exact h_main_arg0
  · after_results_simp
    exact h_main_arg1
  · after_results_simp
    exact h_main_v2
  · after_results_simp
    rw [h_main_arg0]
    rfl

/-- The program's operations 16 to 23, in order, each called function's operation over the plain references. -/
abbrev ch3 : List (HloOp τ sig (Elt F)) :=
  [
    nullary main_cst_2 (constant S_ .f32 0x00000000#32),
    binary main_v9 main_cst_2 main_v10 ((fun x v => Host.reduceAdd x v reducesTo_S4x150x512x512_S4x512x512_d1 h_S_) : (⟨S4x150x512x512, .f32⟩ : BufTy).Contents (Elt F) → (⟨S_, .f32⟩ : BufTy).Contents (Elt F) → (⟨S4x512x512, .f32⟩ : BufTy).Contents (Elt F)),
    unary main_v10 main_v11 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v11 main_v12 (broadcastInDim S4x150x512x512 ![0, 1, 2, 3] bcast_S4x1x512x512_S4x150x512x512_0_1_2_3 : (⟨S4x1x512x512, .f32⟩ : BufTy).Contents (Elt F) → (⟨S4x150x512x512, .f32⟩ : BufTy).Contents (Elt F)),
    binary main_v9 main_v12 main_v13 (Host.divf : (⟨S4x150x512x512, .f32⟩ : BufTy).Contents (Elt F) → (⟨S4x150x512x512, .f32⟩ : BufTy).Contents (Elt F) → (⟨S4x150x512x512, .f32⟩ : BufTy).Contents (Elt F)),
    binary main_v13 main_v13 main_v14 (mulf : (⟨S4x150x512x512, .f32⟩ : BufTy).Contents (Elt F) → (⟨S4x150x512x512, .f32⟩ : BufTy).Contents (Elt F) → (⟨S4x150x512x512, .f32⟩ : BufTy).Contents (Elt F)),
    nullary main_cst_3 (constant S_ .f32 0x00000000#32),
    binary main_v14 main_cst_3 main_v15 ((fun x v => Host.reduceAdd x v reducesTo_S4x150x512x512_S150_d0_2_3 h_S_) : (⟨S4x150x512x512, .f32⟩ : BufTy).Contents (Elt F) → (⟨S_, .f32⟩ : BufTy).Contents (Elt F) → (⟨S150, .f32⟩ : BufTy).Contents (Elt F)) ]

/-- From any contents that hold the first input, the second input, `main_v2`, `main_v9` at their stages, operations 16 to 23 leave the first input, the second input, `main_v2`, `main_v13`, `main_v15` at their stages:
    each operation writes one function of earlier buffers, and a stage is that function of earlier stages. -/
theorem ch3_spec (W : Valuation τ sig (Elt F)) (x0 : (⟨S4x150x512x512, .f32⟩ : BufTy).Contents (Elt F)) (x1 : (⟨S4x512x512, .i32⟩ : BufTy).Contents (Elt F))
    (h_main_arg0 : W (Proc.devRef .tc main_arg0 : DevRef τ sig) = x0)
    (h_main_arg1 : W (Proc.devRef .tc main_arg1 : DevRef τ sig) = x1)
    (h_main_v2 : W (Proc.devRef .tc main_v2 : DevRef τ sig) = val_main_v2 (F := F) x1)
    (h_main_v9 : W (Proc.devRef .tc main_v9 : DevRef τ sig) = val_main_v9 (F := F) x0) :
    after (ch3 (F := F)) W (Proc.devRef .tc main_arg0 : DevRef τ sig) = x0
    ∧ after (ch3 (F := F)) W (Proc.devRef .tc main_arg1 : DevRef τ sig) = x1
    ∧ after (ch3 (F := F)) W (Proc.devRef .tc main_v2 : DevRef τ sig) = val_main_v2 (F := F) x1
    ∧ after (ch3 (F := F)) W (Proc.devRef .tc main_v13 : DevRef τ sig) = val_main_v13 (F := F) x0
    ∧ after (ch3 (F := F)) W (Proc.devRef .tc main_v15 : DevRef τ sig) = val_main_v15 (F := F) x0 := by
  refine ⟨?_, ?_, ?_, ?_, ?_⟩
  · after_results_simp
    exact h_main_arg0
  · after_results_simp
    exact h_main_arg1
  · after_results_simp
    exact h_main_v2
  · after_results_simp
    rw [h_main_v9]
    rfl
  · after_results_simp
    rw [h_main_v9]
    rfl

/-- The program's operations 24 to 32, in order, each called function's operation over the plain references. -/
abbrev ch4 : List (HloOp τ sig (Elt F)) :=
  [
    unary main_v2 main_v16 (broadcastInDim S4x1x512x512 ![0, 2, 3] bcast_S4x512x512_S4x1x512x512_0_2_3 : (⟨S4x512x512, .i32⟩ : BufTy).Contents (Elt F) → (⟨S4x1x512x512, .i32⟩ : BufTy).Contents (Elt F)),
    nullary main_call1_c ((constantI S_ 32 0#32) : (⟨S_, .i32⟩ : BufTy).Contents (Elt F)),
    unary main_call1_c main_call1_v0 ((broadcastInDim S4x1x512x512 ![] bcast_S_S4x1x512x512) : (⟨S_, .i32⟩ : BufTy).Contents (Elt F) → (⟨S4x1x512x512, .i32⟩ : BufTy).Contents (Elt F)),
    binary main_v16 main_call1_v0 main_call1_v1 ((cmpi .slt) : (⟨S4x1x512x512, .i32⟩ : BufTy).Contents (Elt F) → (⟨S4x1x512x512, .i32⟩ : BufTy).Contents (Elt F) → (⟨S4x1x512x512, .i1⟩ : BufTy).Contents (Elt F)),
    nullary main_call1_c_0 ((constantI S_ 32 150#32) : (⟨S_, .i32⟩ : BufTy).Contents (Elt F)),
    unary main_call1_c_0 main_call1_v2 ((broadcastInDim S4x1x512x512 ![] bcast_S_S4x1x512x512) : (⟨S_, .i32⟩ : BufTy).Contents (Elt F) → (⟨S4x1x512x512, .i32⟩ : BufTy).Contents (Elt F)),
    binary main_v16 main_call1_v2 main_call1_v3 (addi : (⟨S4x1x512x512, .i32⟩ : BufTy).Contents (Elt F) → (⟨S4x1x512x512, .i32⟩ : BufTy).Contents (Elt F) → (⟨S4x1x512x512, .i32⟩ : BufTy).Contents (Elt F)),
    ternary main_call1_v1 main_call1_v3 main_v16 main_call1_v4 (select : (⟨S4x1x512x512, .i1⟩ : BufTy).Contents (Elt F) → (⟨S4x1x512x512, .i32⟩ : BufTy).Contents (Elt F) → (⟨S4x1x512x512, .i32⟩ : BufTy).Contents (Elt F) → (⟨S4x1x512x512, .i32⟩ : BufTy).Contents (Elt F)),
    reshape main_call1_v4 main_call1_v5 rfl shapeCasts_S4x1x512x512_S4x1x512x512x1 ]

/-- From any contents that hold the first input, the second input, `main_v2`, `main_v13`, `main_v15` at their stages, operations 24 to 32 leave the first input, the second input, `main_v2`, `main_v13`, `main_v15`, `main_call1_v5` at their stages:
    each operation writes one function of earlier buffers, and a stage is that function of earlier stages. -/
theorem ch4_spec (W : Valuation τ sig (Elt F)) (x0 : (⟨S4x150x512x512, .f32⟩ : BufTy).Contents (Elt F)) (x1 : (⟨S4x512x512, .i32⟩ : BufTy).Contents (Elt F))
    (h_main_arg0 : W (Proc.devRef .tc main_arg0 : DevRef τ sig) = x0)
    (h_main_arg1 : W (Proc.devRef .tc main_arg1 : DevRef τ sig) = x1)
    (h_main_v2 : W (Proc.devRef .tc main_v2 : DevRef τ sig) = val_main_v2 (F := F) x1)
    (h_main_v13 : W (Proc.devRef .tc main_v13 : DevRef τ sig) = val_main_v13 (F := F) x0)
    (h_main_v15 : W (Proc.devRef .tc main_v15 : DevRef τ sig) = val_main_v15 (F := F) x0) :
    after (ch4 (F := F)) W (Proc.devRef .tc main_arg0 : DevRef τ sig) = x0
    ∧ after (ch4 (F := F)) W (Proc.devRef .tc main_arg1 : DevRef τ sig) = x1
    ∧ after (ch4 (F := F)) W (Proc.devRef .tc main_v2 : DevRef τ sig) = val_main_v2 (F := F) x1
    ∧ after (ch4 (F := F)) W (Proc.devRef .tc main_v13 : DevRef τ sig) = val_main_v13 (F := F) x0
    ∧ after (ch4 (F := F)) W (Proc.devRef .tc main_v15 : DevRef τ sig) = val_main_v15 (F := F) x0
    ∧ after (ch4 (F := F)) W (Proc.devRef .tc main_call1_v5 : DevRef τ sig) = val_main_call1_v5 (F := F) x1 := by
  refine ⟨?_, ?_, ?_, ?_, ?_, ?_⟩
  · after_results_simp
    exact h_main_arg0
  · after_results_simp
    exact h_main_arg1
  · after_results_simp
    exact h_main_v2
  · after_results_simp
    exact h_main_v13
  · after_results_simp
    exact h_main_v15
  · after_results_simp
    rw [h_main_v2]
    rfl

/-- The program's operations 33 to 42, in order, each called function's operation over the plain references (the conjunction over the unit axis stays over its typed references, as the program spells it). -/
abbrev ch5 : List (HloOp τ sig (Elt F)) :=
  [
    nullary main_call1_c_1 ((constantI S1 32 149#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S4x1x512x512x1 ![] bcast_S_S4x1x512x512x1) : (⟨S_, .i32⟩ : BufTy).Contents (Elt F) → (⟨S4x1x512x512x1, .i32⟩ : BufTy).Contents (Elt F)),
    binary main_call1_v5 main_call1_v6 main_call1_v7 ((cmpi .sge) : (⟨S4x1x512x512x1, .i32⟩ : BufTy).Contents (Elt F) → (⟨S4x1x512x512x1, .i32⟩ : BufTy).Contents (Elt F) → (⟨S4x1x512x512x1, .i1⟩ : BufTy).Contents (Elt F)),
    unary main_call1_c_1 main_call1_v8 ((broadcastInDim S1x1x1x1x1 ![4] bcast_S1_S1x1x1x1x1_4) : (⟨S1, .i32⟩ : BufTy).Contents (Elt F) → (⟨S1x1x1x1x1, .i32⟩ : BufTy).Contents (Elt F)),
    unary main_call1_v8 main_call1_v9 ((broadcastInDim S4x1x512x512x1 ![0, 1, 2, 3, 4] bcast_S1x1x1x1x1_S4x1x512x512x1_0_1_2_3_4) : (⟨S1x1x1x1x1, .i32⟩ : BufTy).Contents (Elt F) → (⟨S4x1x512x512x1, .i32⟩ : BufTy).Contents (Elt F)),
    binary main_call1_v5 main_call1_v9 main_call1_v10 ((cmpi .sle) : (⟨S4x1x512x512x1, .i32⟩ : BufTy).Contents (Elt F) → (⟨S4x1x512x512x1, .i32⟩ : BufTy).Contents (Elt F) → (⟨S4x1x512x512x1, .i1⟩ : BufTy).Contents (Elt F)),
    binary main_call1_v7 main_call1_v10 main_call1_v11 (andi : (⟨S4x1x512x512x1, .i1⟩ : BufTy).Contents (Elt F) → (⟨S4x1x512x512x1, .i1⟩ : BufTy).Contents (Elt F) → (⟨S4x1x512x512x1, .i1⟩ : BufTy).Contents (Elt F)),
    nullary main_call1_c_3 ((constantI S_ 1 1#1) : (⟨S_, .i1⟩ : BufTy).Contents (Elt F)),
    TRef.binary (TRef.of (T := ⟨S4x1x512x512x1, .i1⟩) main_call1_v11) (TRef.of (T := ⟨S_, .i1⟩) main_call1_c_3) (TRef.of (T := ⟨S4x1x512x512, .i1⟩) main_call1_v12) (fun x v => Host.reduce IntOp.andi x v reducesTo_S4x1x512x512x1_S4x1x512x512_d4 h_S_) ]

/-- From any contents that hold the first input, the second input, `main_v2`, `main_v13`, `main_v15`, `main_call1_v5` at their stages, operations 33 to 42 leave the first input, the second input, `main_v2`, `main_v13`, `main_v15`, `main_call1_v5`, `main_call1_v12` at their stages:
    each operation writes one function of earlier buffers, and a stage is that function of earlier stages. -/
theorem ch5_spec (W : Valuation τ sig (Elt F)) (x0 : (⟨S4x150x512x512, .f32⟩ : BufTy).Contents (Elt F)) (x1 : (⟨S4x512x512, .i32⟩ : BufTy).Contents (Elt F))
    (h_main_arg0 : W (Proc.devRef .tc main_arg0 : DevRef τ sig) = x0)
    (h_main_arg1 : W (Proc.devRef .tc main_arg1 : DevRef τ sig) = x1)
    (h_main_v2 : W (Proc.devRef .tc main_v2 : DevRef τ sig) = val_main_v2 (F := F) x1)
    (h_main_v13 : W (Proc.devRef .tc main_v13 : DevRef τ sig) = val_main_v13 (F := F) x0)
    (h_main_v15 : W (Proc.devRef .tc main_v15 : DevRef τ sig) = val_main_v15 (F := F) x0)
    (h_main_call1_v5 : W (Proc.devRef .tc main_call1_v5 : DevRef τ sig) = val_main_call1_v5 (F := F) x1) :
    after (ch5 (F := F)) W (Proc.devRef .tc main_arg0 : DevRef τ sig) = x0
    ∧ after (ch5 (F := F)) W (Proc.devRef .tc main_arg1 : DevRef τ sig) = x1
    ∧ after (ch5 (F := F)) W (Proc.devRef .tc main_v2 : DevRef τ sig) = val_main_v2 (F := F) x1
    ∧ after (ch5 (F := F)) W (Proc.devRef .tc main_v13 : DevRef τ sig) = val_main_v13 (F := F) x0
    ∧ after (ch5 (F := F)) W (Proc.devRef .tc main_v15 : DevRef τ sig) = val_main_v15 (F := F) x0
    ∧ after (ch5 (F := F)) W (Proc.devRef .tc main_call1_v5 : DevRef τ sig) = val_main_call1_v5 (F := F) x1
    ∧ after (ch5 (F := F)) W (Proc.devRef .tc main_call1_v12 : DevRef τ sig) = val_main_call1_v12 (F := F) x1 := by
  refine ⟨?_, ?_, ?_, ?_, ?_, ?_, ?_⟩
  · after_results_simp
    exact h_main_arg0
  · after_results_simp
    exact h_main_arg1
  · after_results_simp
    exact h_main_v2
  · after_results_simp
    exact h_main_v13
  · after_results_simp
    exact h_main_v15
  · after_results_simp
    exact h_main_call1_v5
  · after_results_simp
    rw [h_main_call1_v5]
    simp only [TRef.ofBuf, TRef.toBuf, cast_eq]
    rfl

/-- The program's operations 43 to 48, in order, each called function's operation over the plain references. -/
abbrev ch6 : List (HloOp τ sig (Elt F)) :=
  [
    binary main_v13 main_call1_v5 main_call1_v13 ((fun x i => Host.gather gather_S4x150x512x512_S4x1x512x512x1_S4x1x512x512_n_1_023_023_1_4_1111 x i) : (⟨S4x150x512x512, .f32⟩ : BufTy).Contents (Elt F) → (⟨S4x1x512x512x1, .i32⟩ : BufTy).Contents (Elt F) → (⟨S4x1x512x512, .f32⟩ : BufTy).Contents (Elt F)),
    nullary main_call1_cst ((constant S_ .f32 0x7FC00000#32) : (⟨S_, .f32⟩ : BufTy).Contents (Elt F)),
    unary main_call1_cst main_call1_v14 ((broadcastInDim S4x1x512x512 ![] bcast_S_S4x1x512x512) : (⟨S_, .f32⟩ : BufTy).Contents (Elt F) → (⟨S4x1x512x512, .f32⟩ : BufTy).Contents (Elt F)),
    ternary main_call1_v12 main_call1_v13 main_call1_v14 main_v17 (select : (⟨S4x1x512x512, .i1⟩ : BufTy).Contents (Elt F) → (⟨S4x1x512x512, .f32⟩ : BufTy).Contents (Elt F) → (⟨S4x1x512x512, .f32⟩ : BufTy).Contents (Elt F) → (⟨S4x1x512x512, .f32⟩ : BufTy).Contents (Elt F)),
    reshape main_v17 main_v18 rfl shapeCasts_S4x1x512x512_S4x512x512,
    reshape main_v2 main_v19 rfl shapeCasts_S4x512x512_S1048576 ]

/-- From any contents that hold the first input, the second input, `main_v2`, `main_v13`, `main_v15`, `main_call1_v5`, `main_call1_v12` at their stages, operations 43 to 48 leave the first input, the second input, `main_v15`, `main_v18`, `main_v19` at their stages:
    each operation writes one function of earlier buffers, and a stage is that function of earlier stages. -/
theorem ch6_spec (W : Valuation τ sig (Elt F)) (x0 : (⟨S4x150x512x512, .f32⟩ : BufTy).Contents (Elt F)) (x1 : (⟨S4x512x512, .i32⟩ : BufTy).Contents (Elt F))
    (h_main_arg0 : W (Proc.devRef .tc main_arg0 : DevRef τ sig) = x0)
    (h_main_arg1 : W (Proc.devRef .tc main_arg1 : DevRef τ sig) = x1)
    (h_main_v2 : W (Proc.devRef .tc main_v2 : DevRef τ sig) = val_main_v2 (F := F) x1)
    (h_main_v13 : W (Proc.devRef .tc main_v13 : DevRef τ sig) = val_main_v13 (F := F) x0)
    (h_main_v15 : W (Proc.devRef .tc main_v15 : DevRef τ sig) = val_main_v15 (F := F) x0)
    (h_main_call1_v5 : W (Proc.devRef .tc main_call1_v5 : DevRef τ sig) = val_main_call1_v5 (F := F) x1)
    (h_main_call1_v12 : W (Proc.devRef .tc main_call1_v12 : DevRef τ sig) = val_main_call1_v12 (F := F) x1) :
    after (ch6 (F := F)) W (Proc.devRef .tc main_arg0 : DevRef τ sig) = x0
    ∧ after (ch6 (F := F)) W (Proc.devRef .tc main_arg1 : DevRef τ sig) = x1
    ∧ after (ch6 (F := F)) W (Proc.devRef .tc main_v15 : DevRef τ sig) = val_main_v15 (F := F) x0
    ∧ after (ch6 (F := F)) W (Proc.devRef .tc main_v18 : DevRef τ sig) = val_main_v18 (F := F) x0 x1
    ∧ after (ch6 (F := F)) W (Proc.devRef .tc main_v19 : DevRef τ sig) = val_main_v19 (F := F) x1 := by
  refine ⟨?_, ?_, ?_, ?_, ?_⟩
  · after_results_simp
    exact h_main_arg0
  · after_results_simp
    exact h_main_arg1
  · after_results_simp
    exact h_main_v15
  · after_results_simp
    rw [h_main_v13, h_main_call1_v5, h_main_call1_v12]
    rfl
  · after_results_simp
    rw [h_main_v2]
    rfl

/-- The program's operations 49 to 60, in order, each called function's operation over the plain references. -/
abbrev ch7 : List (HloOp τ sig (Elt F)) :=
  [
    nullary main_cst_4 (constant S_ .f32 0x00000000#32),
    unary main_cst_4 main_v20 (broadcastInDim S150 ![] bcast_S_S150 : (⟨S_, .f32⟩ : BufTy).Contents (Elt F) → (⟨S150, .f32⟩ : BufTy).Contents (Elt F)),
    reshape main_v18 main_v21 rfl shapeCasts_S4x512x512_S1048576,
    nullary main_c_5 (constantI S_ 32 0#32),
    unary main_c_5 main_v22 (broadcastInDim S1048576 ![] bcast_S_S1048576 : (⟨S_, .i32⟩ : BufTy).Contents (Elt F) → (⟨S1048576, .i32⟩ : BufTy).Contents (Elt F)),
    binary main_v19 main_v22 main_v23 (cmpi .slt : (⟨S1048576, .i32⟩ : BufTy).Contents (Elt F) → (⟨S1048576, .i32⟩ : BufTy).Contents (Elt F) → (⟨S1048576, .i1⟩ : BufTy).Contents (Elt F)),
    nullary main_c_6 (constantI S_ 32 150#32),
    unary main_c_6 main_v24 (broadcastInDim S1048576 ![] bcast_S_S1048576 : (⟨S_, .i32⟩ : BufTy).Contents (Elt F) → (⟨S1048576, .i32⟩ : BufTy).Contents (Elt F)),
    binary main_v19 main_v24 main_v25 (addi : (⟨S1048576, .i32⟩ : BufTy).Contents (Elt F) → (⟨S1048576, .i32⟩ : BufTy).Contents (Elt F) → (⟨S1048576, .i32⟩ : BufTy).Contents (Elt F)),
    ternary main_v23 main_v25 main_v19 main_v26 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v26 main_v27 (broadcastInDim S1048576x1 ![0] bcast_S1048576_S1048576x1_0 : (⟨S1048576, .i32⟩ : BufTy).Contents (Elt F) → (⟨S1048576x1, .i32⟩ : BufTy).Contents (Elt F)),
    ternary main_v20 main_v27 main_v21 main_v28 ((fun x i u => Host.scatterAdd scatter_S150_S1048576x1_S1048576_n_0_0_1 x i u) : (⟨S150, .f32⟩ : BufTy).Contents (Elt F) → (⟨S1048576x1, .i32⟩ : BufTy).Contents (Elt F) → (⟨S1048576, .f32⟩ : BufTy).Contents (Elt F) → (⟨S150, .f32⟩ : BufTy).Contents (Elt F)) ]

/-- From any contents that hold the first input, the second input, `main_v15`, `main_v18`, `main_v19` at their stages, operations 49 to 60 leave the first input, the second input, `main_v15`, `main_v19`, `main_v28` at their stages:
    each operation writes one function of earlier buffers, and a stage is that function of earlier stages. -/
theorem ch7_spec (W : Valuation τ sig (Elt F)) (x0 : (⟨S4x150x512x512, .f32⟩ : BufTy).Contents (Elt F)) (x1 : (⟨S4x512x512, .i32⟩ : BufTy).Contents (Elt F))
    (h_main_arg0 : W (Proc.devRef .tc main_arg0 : DevRef τ sig) = x0)
    (h_main_arg1 : W (Proc.devRef .tc main_arg1 : DevRef τ sig) = x1)
    (h_main_v15 : W (Proc.devRef .tc main_v15 : DevRef τ sig) = val_main_v15 (F := F) x0)
    (h_main_v18 : W (Proc.devRef .tc main_v18 : DevRef τ sig) = val_main_v18 (F := F) x0 x1)
    (h_main_v19 : W (Proc.devRef .tc main_v19 : DevRef τ sig) = val_main_v19 (F := F) x1) :
    after (ch7 (F := F)) W (Proc.devRef .tc main_arg0 : DevRef τ sig) = x0
    ∧ after (ch7 (F := F)) W (Proc.devRef .tc main_arg1 : DevRef τ sig) = x1
    ∧ after (ch7 (F := F)) W (Proc.devRef .tc main_v15 : DevRef τ sig) = val_main_v15 (F := F) x0
    ∧ after (ch7 (F := F)) W (Proc.devRef .tc main_v19 : DevRef τ sig) = val_main_v19 (F := F) x1
    ∧ after (ch7 (F := F)) W (Proc.devRef .tc main_v28 : DevRef τ sig) = val_main_v28 (F := F) x0 x1 := by
  refine ⟨?_, ?_, ?_, ?_, ?_⟩
  · after_results_simp
    exact h_main_arg0
  · after_results_simp
    exact h_main_arg1
  · after_results_simp
    exact h_main_v15
  · after_results_simp
    exact h_main_v19
  · after_results_simp
    rw [h_main_v18, h_main_v19]
    rfl

/-- The program's operations 61 to 73, in order, each called function's operation over the plain references. -/
abbrev ch8 : List (HloOp τ sig (Elt F)) :=
  [
    nullary main_cst_7 (constant S_ .f32 0x00000000#32),
    unary main_cst_7 main_v29 (broadcastInDim S150 ![] bcast_S_S150 : (⟨S_, .f32⟩ : BufTy).Contents (Elt F) → (⟨S150, .f32⟩ : BufTy).Contents (Elt F)),
    nullary main_c_8 (constantI S_ 32 0#32),
    unary main_c_8 main_v30 (broadcastInDim S1048576 ![] bcast_S_S1048576 : (⟨S_, .i32⟩ : BufTy).Contents (Elt F) → (⟨S1048576, .i32⟩ : BufTy).Contents (Elt F)),
    binary main_v19 main_v30 main_v31 (cmpi .slt : (⟨S1048576, .i32⟩ : BufTy).Contents (Elt F) → (⟨S1048576, .i32⟩ : BufTy).Contents (Elt F) → (⟨S1048576, .i1⟩ : BufTy).Contents (Elt F)),
    nullary main_c_9 (constantI S_ 32 150#32),
    unary main_c_9 main_v32 (broadcastInDim S1048576 ![] bcast_S_S1048576 : (⟨S_, .i32⟩ : BufTy).Contents (Elt F) → (⟨S1048576, .i32⟩ : BufTy).Contents (Elt F)),
    binary main_v19 main_v32 main_v33 (addi : (⟨S1048576, .i32⟩ : BufTy).Contents (Elt F) → (⟨S1048576, .i32⟩ : BufTy).Contents (Elt F) → (⟨S1048576, .i32⟩ : BufTy).Contents (Elt F)),
    ternary main_v31 main_v33 main_v19 main_v34 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v34 main_v35 (broadcastInDim S1048576x1 ![0] bcast_S1048576_S1048576x1_0 : (⟨S1048576, .i32⟩ : BufTy).Contents (Elt F) → (⟨S1048576x1, .i32⟩ : BufTy).Contents (Elt F)),
    nullary main_cst_10 (constant S_ .f32 0x3F800000#32),
    unary main_cst_10 main_v36 (broadcastInDim S1048576 ![] bcast_S_S1048576 : (⟨S_, .f32⟩ : BufTy).Contents (Elt F) → (⟨S1048576, .f32⟩ : BufTy).Contents (Elt F)),
    ternary main_v29 main_v35 main_v36 main_v37 ((fun x i u => Host.scatterAdd scatter_S150_S1048576x1_S1048576_n_0_0_1 x i u) : (⟨S150, .f32⟩ : BufTy).Contents (Elt F) → (⟨S1048576x1, .i32⟩ : BufTy).Contents (Elt F) → (⟨S1048576, .f32⟩ : BufTy).Contents (Elt F) → (⟨S150, .f32⟩ : BufTy).Contents (Elt F)) ]

/-- From any contents that hold the first input, the second input, `main_v15`, `main_v19`, `main_v28` at their stages, operations 61 to 73 leave the first input, the second input, `main_v15`, `main_v28`, `main_v37` at their stages:
    each operation writes one function of earlier buffers, and a stage is that function of earlier stages. -/
theorem ch8_spec (W : Valuation τ sig (Elt F)) (x0 : (⟨S4x150x512x512, .f32⟩ : BufTy).Contents (Elt F)) (x1 : (⟨S4x512x512, .i32⟩ : BufTy).Contents (Elt F))
    (h_main_arg0 : W (Proc.devRef .tc main_arg0 : DevRef τ sig) = x0)
    (h_main_arg1 : W (Proc.devRef .tc main_arg1 : DevRef τ sig) = x1)
    (h_main_v15 : W (Proc.devRef .tc main_v15 : DevRef τ sig) = val_main_v15 (F := F) x0)
    (h_main_v19 : W (Proc.devRef .tc main_v19 : DevRef τ sig) = val_main_v19 (F := F) x1)
    (h_main_v28 : W (Proc.devRef .tc main_v28 : DevRef τ sig) = val_main_v28 (F := F) x0 x1) :
    after (ch8 (F := F)) W (Proc.devRef .tc main_arg0 : DevRef τ sig) = x0
    ∧ after (ch8 (F := F)) W (Proc.devRef .tc main_arg1 : DevRef τ sig) = x1
    ∧ after (ch8 (F := F)) W (Proc.devRef .tc main_v15 : DevRef τ sig) = val_main_v15 (F := F) x0
    ∧ after (ch8 (F := F)) W (Proc.devRef .tc main_v28 : DevRef τ sig) = val_main_v28 (F := F) x0 x1
    ∧ after (ch8 (F := F)) W (Proc.devRef .tc main_v37 : DevRef τ sig) = val_main_v37 (F := F) x1 := by
  refine ⟨?_, ?_, ?_, ?_, ?_⟩
  · after_results_simp
    exact h_main_arg0
  · after_results_simp
    exact h_main_arg1
  · after_results_simp
    exact h_main_v15
  · after_results_simp
    exact h_main_v28
  · after_results_simp
    rw [h_main_v19]
    rfl

/-- The program's operations 74 to 84, in order, each called function's operation over the plain references. -/
abbrev ch9 : List (HloOp τ sig (Elt F)) :=
  [
    nullary main_cst_11 (constant S_ .f32 0x40000000#32),
    unary main_cst_11 main_v38 (broadcastInDim S150 ![] bcast_S_S150 : (⟨S_, .f32⟩ : BufTy).Contents (Elt F) → (⟨S150, .f32⟩ : BufTy).Contents (Elt F)),
    binary main_v38 main_v28 main_v39 (mulf : (⟨S150, .f32⟩ : BufTy).Contents (Elt F) → (⟨S150, .f32⟩ : BufTy).Contents (Elt F) → (⟨S150, .f32⟩ : BufTy).Contents (Elt F)),
    nullary main_cst_12 (constant S_ .f32 0x3727C5AC#32),
    unary main_cst_12 main_v40 (broadcastInDim S150 ![] bcast_S_S150 : (⟨S_, .f32⟩ : BufTy).Contents (Elt F) → (⟨S150, .f32⟩ : BufTy).Contents (Elt F)),
    binary main_v39 main_v40 main_v41 (addf : (⟨S150, .f32⟩ : BufTy).Contents (Elt F) → (⟨S150, .f32⟩ : BufTy).Contents (Elt F) → (⟨S150, .f32⟩ : BufTy).Contents (Elt F)),
    binary main_v15 main_v37 main_v42 (addf : (⟨S150, .f32⟩ : BufTy).Contents (Elt F) → (⟨S150, .f32⟩ : BufTy).Contents (Elt F) → (⟨S150, .f32⟩ : BufTy).Contents (Elt F)),
    nullary main_cst_13 (constant S_ .f32 0x3727C5AC#32),
    unary main_cst_13 main_v43 (broadcastInDim S150 ![] bcast_S_S150 : (⟨S_, .f32⟩ : BufTy).Contents (Elt F) → (⟨S150, .f32⟩ : BufTy).Contents (Elt F)),
    binary main_v42 main_v43 main_v44 (addf : (⟨S150, .f32⟩ : BufTy).Contents (Elt F) → (⟨S150, .f32⟩ : BufTy).Contents (Elt F) → (⟨S150, .f32⟩ : BufTy).Contents (Elt F)),
    binary main_v41 main_v44 main_v45 (Host.divf : (⟨S150, .f32⟩ : BufTy).Contents (Elt F) → (⟨S150, .f32⟩ : BufTy).Contents (Elt F) → (⟨S150, .f32⟩ : BufTy).Contents (Elt F)) ]

/-- From any contents that hold the first input, the second input, `main_v15`, `main_v28`, `main_v37` at their stages, operations 74 to 84 leave the first input, the second input, `main_v45` at their stages:
    each operation writes one function of earlier buffers, and a stage is that function of earlier stages. -/
theorem ch9_spec (W : Valuation τ sig (Elt F)) (x0 : (⟨S4x150x512x512, .f32⟩ : BufTy).Contents (Elt F)) (x1 : (⟨S4x512x512, .i32⟩ : BufTy).Contents (Elt F))
    (h_main_arg0 : W (Proc.devRef .tc main_arg0 : DevRef τ sig) = x0)
    (h_main_arg1 : W (Proc.devRef .tc main_arg1 : DevRef τ sig) = x1)
    (h_main_v15 : W (Proc.devRef .tc main_v15 : DevRef τ sig) = val_main_v15 (F := F) x0)
    (h_main_v28 : W (Proc.devRef .tc main_v28 : DevRef τ sig) = val_main_v28 (F := F) x0 x1)
    (h_main_v37 : W (Proc.devRef .tc main_v37 : DevRef τ sig) = val_main_v37 (F := F) x1) :
    after (ch9 (F := F)) W (Proc.devRef .tc main_arg0 : DevRef τ sig) = x0
    ∧ after (ch9 (F := F)) W (Proc.devRef .tc main_arg1 : DevRef τ sig) = x1
    ∧ after (ch9 (F := F)) W (Proc.devRef .tc main_v45 : DevRef τ sig) = val_main_v45 (F := F) x0 x1 := by
  refine ⟨?_, ?_, ?_⟩
  · after_results_simp
    exact h_main_arg0
  · after_results_simp
    exact h_main_arg1
  · after_results_simp
    rw [h_main_v15, h_main_v28, h_main_v37]
    rfl

/-- The program's operations 85 to 91, in order, each called function's operation over the plain references. -/
abbrev ch10 : List (HloOp τ sig (Elt F)) :=
  [
    nullary main_cst_14 (constant S_ .f32 0x3F800000#32),
    unary main_cst_14 main_v46 (broadcastInDim S150 ![] bcast_S_S150 : (⟨S_, .f32⟩ : BufTy).Contents (Elt F) → (⟨S150, .f32⟩ : BufTy).Contents (Elt F)),
    binary main_v46 main_v45 main_v47 (subf : (⟨S150, .f32⟩ : BufTy).Contents (Elt F) → (⟨S150, .f32⟩ : BufTy).Contents (Elt F) → (⟨S150, .f32⟩ : BufTy).Contents (Elt F)),
    nullary main_cst_15 (constant S_ .f32 0x00000000#32),
    binary main_v47 main_cst_15 main_v48 ((fun x v => Host.reduceAdd x v reducesTo_S150_S_d0 h_S_) : (⟨S150, .f32⟩ : BufTy).Contents (Elt F) → (⟨S_, .f32⟩ : BufTy).Contents (Elt F) → (⟨S_, .f32⟩ : BufTy).Contents (Elt F)),
    nullary main_cst_16 (constant S_ .f32 0x43160000#32),
    binary main_v48 main_cst_16 main_v49 (Host.divf : (⟨S_, .f32⟩ : BufTy).Contents (Elt F) → (⟨S_, .f32⟩ : BufTy).Contents (Elt F) → (⟨S_, .f32⟩ : BufTy).Contents (Elt F)) ]

/-- From any contents that hold the first input, the second input, `main_v45` at their stages, operations 85 to 91 leave the first input, the second input, `main_v45`, `main_v49` at their stages:
    each operation writes one function of earlier buffers, and a stage is that function of earlier stages. -/
theorem ch10_spec (W : Valuation τ sig (Elt F)) (x0 : (⟨S4x150x512x512, .f32⟩ : BufTy).Contents (Elt F)) (x1 : (⟨S4x512x512, .i32⟩ : BufTy).Contents (Elt F))
    (h_main_arg0 : W (Proc.devRef .tc main_arg0 : DevRef τ sig) = x0)
    (h_main_arg1 : W (Proc.devRef .tc main_arg1 : DevRef τ sig) = x1)
    (h_main_v45 : W (Proc.devRef .tc main_v45 : DevRef τ sig) = val_main_v45 (F := F) x0 x1) :
    after (ch10 (F := F)) W (Proc.devRef .tc main_arg0 : DevRef τ sig) = x0
    ∧ after (ch10 (F := F)) W (Proc.devRef .tc main_arg1 : DevRef τ sig) = x1
    ∧ after (ch10 (F := F)) W (Proc.devRef .tc main_v45 : DevRef τ sig) = val_main_v45 (F := F) x0 x1
    ∧ after (ch10 (F := F)) W (Proc.devRef .tc main_v49 : DevRef τ sig) = val_main_v49 (F := F) x0 x1 := by
  refine ⟨?_, ?_, ?_, ?_⟩
  · after_results_simp
    exact h_main_arg0
  · after_results_simp
    exact h_main_arg1
  · after_results_simp
    exact h_main_v45
  · after_results_simp
    rw [h_main_v45]
    rfl

/-- The program's line of operations is the ten stretches in a row (a typed reference's transport is the identity at a literal reference). -/
theorem ops_split : (ops : List (HloOp τ sig (Elt F))) = ch1 ++ (ch2 ++ (ch3 ++ (ch4 ++ (ch5 ++ (ch6 ++ (ch7 ++ (ch8 ++ (ch9 ++ (ch10))))))))) := rfl

/-- After the whole line, from any contents holding the two inputs: the loss and the dice vector are at their stages of the inputs,
    and the inputs are as they were. Stretch by stretch, each from what the one before leaves. -/
theorem after_ops (V : Valuation τ sig (Elt F)) (x0 : (⟨S4x150x512x512, .f32⟩ : BufTy).Contents (Elt F)) (x1 : (⟨S4x512x512, .i32⟩ : BufTy).Contents (Elt F))
    (h_main_arg0 : V (Proc.devRef .tc main_arg0 : DevRef τ sig) = x0) (h_main_arg1 : V (Proc.devRef .tc main_arg1 : DevRef τ sig) = x1) :
    after (ops (F := F)) V (Proc.devRef .tc main_v49 : DevRef τ sig) = val_main_v49 (F := F) x0 x1
    ∧ after (ops (F := F)) V (Proc.devRef .tc main_v45 : DevRef τ sig) = val_main_v45 (F := F) x0 x1
    ∧ after (ops (F := F)) V (Proc.devRef .tc main_arg0 : DevRef τ sig) = x0
    ∧ after (ops (F := F)) V (Proc.devRef .tc main_arg1 : DevRef τ sig) = x1 := by
  rw [ops_split]
  simp only [after_append]
  obtain ⟨a1_main_arg0, a1_main_arg1, a1_main_v2⟩ := ch1_spec V x0 x1 h_main_arg0 h_main_arg1
  obtain ⟨a2_main_arg0, a2_main_arg1, a2_main_v2, a2_main_v9⟩ := ch2_spec (after ch1 V) x0 x1 a1_main_arg0 a1_main_arg1 a1_main_v2
  obtain ⟨a3_main_arg0, a3_main_arg1, a3_main_v2, a3_main_v13, a3_main_v15⟩ := ch3_spec (after ch2 (after ch1 V)) x0 x1 a2_main_arg0 a2_main_arg1 a2_main_v2 a2_main_v9
  obtain ⟨a4_main_arg0, a4_main_arg1, a4_main_v2, a4_main_v13, a4_main_v15, a4_main_call1_v5⟩ := ch4_spec (after ch3 (after ch2 (after ch1 V))) x0 x1 a3_main_arg0 a3_main_arg1 a3_main_v2 a3_main_v13 a3_main_v15
  obtain ⟨a5_main_arg0, a5_main_arg1, a5_main_v2, a5_main_v13, a5_main_v15, a5_main_call1_v5, a5_main_call1_v12⟩ := ch5_spec (after ch4 (after ch3 (after ch2 (after ch1 V)))) x0 x1 a4_main_arg0 a4_main_arg1 a4_main_v2 a4_main_v13 a4_main_v15 a4_main_call1_v5
  obtain ⟨a6_main_arg0, a6_main_arg1, a6_main_v15, a6_main_v18, a6_main_v19⟩ := ch6_spec (after ch5 (after ch4 (after ch3 (after ch2 (after ch1 V))))) x0 x1 a5_main_arg0 a5_main_arg1 a5_main_v2 a5_main_v13 a5_main_v15 a5_main_call1_v5 a5_main_call1_v12
  obtain ⟨a7_main_arg0, a7_main_arg1, a7_main_v15, a7_main_v19, a7_main_v28⟩ := ch7_spec (after ch6 (after ch5 (after ch4 (after ch3 (after ch2 (after ch1 V)))))) x0 x1 a6_main_arg0 a6_main_arg1 a6_main_v15 a6_main_v18 a6_main_v19
  obtain ⟨a8_main_arg0, a8_main_arg1, a8_main_v15, a8_main_v28, a8_main_v37⟩ := ch8_spec (after ch7 (after ch6 (after ch5 (after ch4 (after ch3 (after ch2 (after ch1 V))))))) x0 x1 a7_main_arg0 a7_main_arg1 a7_main_v15 a7_main_v19 a7_main_v28
  obtain ⟨a9_main_arg0, a9_main_arg1, a9_main_v45⟩ := ch9_spec (after ch8 (after ch7 (after ch6 (after ch5 (after ch4 (after ch3 (after ch2 (after ch1 V)))))))) x0 x1 a8_main_arg0 a8_main_arg1 a8_main_v15 a8_main_v28 a8_main_v37
  obtain ⟨a10_main_arg0, a10_main_arg1, a10_main_v45, a10_main_v49⟩ := ch10_spec (after ch9 (after ch8 (after ch7 (after ch6 (after ch5 (after ch4 (after ch3 (after ch2 (after ch1 V))))))))) x0 x1 a9_main_arg0 a9_main_arg1 a9_main_v45
  exact ⟨a10_main_v49, a10_main_v45, a10_main_arg0, a10_main_arg1⟩

/-- On every device, from any memory with zero counters: every weakly fair execution of the reference terminates with
    the loss and the dice vector at their stages of the two inputs, and the inputs unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = val_main_v49 (F := F) (m ((c.tc : Thread nD τ).loc main_arg0)) (m ((c.tc : Thread nD τ).loc main_arg1))
      ∧ r.2.mem ((c.tc : Thread nD τ).loc main_v45) = val_main_v45 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ?_)
    (run_seq scopedRefs_eq scopedSems_eq defs main (fun _ => ops) main_eq (fun _ => ops_sub) m ρ)
  obtain ⟨e49, e45, e0, e1⟩ := after_ops (F := F) (launchContents m c)
    (m ((c.tc : Thread nD τ).loc main_arg0)) (m ((c.tc : Thread nD τ).loc main_arg1)) rfl rfl
  exact ⟨(h c main_v49).trans e49, (h c main_v45).trans e45, (h c main_arg0).trans e0, (h c main_arg1).trans e1⟩

end Cert.ReferenceIdeal.RunP

end
-- ==== Proof.RefSoftmax.lean ====
/-
  The reference's softmax and its sums of squares. The reference subtracts the maximum over the class axis before it
  exponentiates and divides by the sum; for real logits that maximum is a real number `M`, and
  `exp (x - M) / ∑ exp (x' - M) = exp x · (1 / ∑ exp x')`. Its sum of the squares over images, rows and columns is the
  triple sum over those coordinates.
-/
import proofs.«414628_j16355235463504_3_alg».proof.Proof.RefRead
import proofs.«414628_j16355235463504_3_alg».proof.Proof.Spec
import proofs.«414628_j16355235463504_3_alg».proof.Proof.LibSums
import Idealize.ShloMosaic.Lib.Pipeline.Value
import Idealize.ShloMosaic.Lib.IdealHost
import Idealize.ShloMosaic.PureOps.Ideal.Laws
import Mathlib.Data.Finset.Fold
import Mathlib.Analysis.SpecialFunctions.Exp

noncomputable section

namespace Cert.Dice.Ref

open Cert.ReferenceIdeal Cert.ReferenceIdeal.Gen Cert.ReferenceIdeal.ReadP Idealize.ShloMosaic Idealize.ShloMosaic.ValueIdx
open Cert.Dice
open scoped BigOperators

/-- The f32 pattern of one denotes the real number one. -/
theorem one_eq : Ideal.ofBits .f32 0x3F800000#32 = ((1 : ℝ) : EReal) := by
  rw [Ideal.ofBits_one_f32, EReal.coe_one]

/-- The f32 pattern of minus infinity denotes `⊥`. -/
theorem negInf_eq : Ideal.ofBits .f32 0xFF800000#32 = (⊥ : EReal) := by
  simp [Ideal.ofBits, Ideal.ieee]

/-- The maximum, from `⊥`, of finitely many reals, at least one of them, is a real. -/
theorem fold_max_real {ι : Type*} (s : Finset ι) (g : ι → ℝ) (hs : s.Nonempty) :
    ∃ μ : ℝ, s.fold max (⊥ : EReal) (fun k => (g k : EReal)) = (μ : EReal) := by
  classical
  induction s using Finset.induction_on with
  | empty => exact absurd hs Finset.not_nonempty_empty
  | insert a s ha ih =>
    rw [Finset.fold_insert ha]
    rcases s.eq_empty_or_nonempty with rfl | hne
    · exact ⟨g a, by rw [Finset.fold_empty, max_bot_right]⟩
    · obtain ⟨μ, hμ⟩ := ih hne
      exact ⟨max (g a) μ, by rw [hμ]; exact (EReal.coe_strictMono.monotone.map_max).symm⟩

/-- For real logits the reference's maximum over the class axis, at every pixel, is a real. -/
theorem max_real (x : FVec Ideal SX .f32) (hx : ∀ i, ∃ r : ℝ, x i = (r : EReal)) (p : S4x512x512.Idx) :
    ∃ μ : ℝ, val_main_v5 (F := Ideal) x p = (μ : EReal) := by
  choose f hf using hx
  obtain rfl : x = fun i => ((f i : ℝ) : EReal) := funext hf
  have hR : S4x150x512x512.Reduces [1] S4x512x512 := by decide
  rw [val_main_v5_apply, val_main_v4_apply, val_main_cst_1_apply]
  unfold val_main_v3
  rw [Host.reduce_eq_fold_single FloatOps.maximumf _ _ reducesTo_S4x150x512x512_S4x512x512_d1 hR h_S_]
  obtain ⟨μ, hμ⟩ := fold_max_real (Finset.univ : Finset (Fin (S4x150x512x512.size 1))) (fun k => f (hR.lift p k))
    ⟨⟨0, by decide⟩, Finset.mem_univ _⟩
  refine ⟨μ, ?_⟩
  show max (Ideal.ofBits .f32 0xFF800000#32) (Finset.fold max (Ideal.ofBits .f32 0xFF800000#32)
    (fun k => ((f (hR.lift p k) : ℝ) : EReal)) Finset.univ) = ↑μ
  rw [negInf_eq, hμ, max_bot_left]

/-- Subtracting one number from every exponent leaves the normalized exponential unchanged. -/
theorem real_softmax (r μ : ℝ) (g : Fin 150 → ℝ) :
    Real.exp (r - μ) * (1 / ∑ k, Real.exp (g k - μ)) = Real.exp r * (1 * (1 / ∑ k, Real.exp (g k))) := by
  have hpos : 0 < ∑ k : Fin 150, Real.exp (g k) :=
    Finset.sum_pos (fun k _ => Real.exp_pos _) ⟨0, Finset.mem_univ _⟩
  have hsum : ∑ k, Real.exp (g k - μ) = (∑ k, Real.exp (g k)) / Real.exp μ := by
    rw [Finset.sum_div]; exact Finset.sum_congr rfl fun k _ => Real.exp_sub _ _
  have hμ := Real.exp_pos μ
  rw [hsum, Real.exp_sub]
  field_simp

/-- The indices that the reduction over images, rows and columns sends to the class `j` are those of class `j`:
    a sum over them is the triple sum over image, row and column. -/
theorem sum_class (h : S4x150x512x512.ReducesTo [0, 2, 3] S150) (g : SX.Idx → EReal) (j : S150.Idx)
    [DecidablePred fun i : S4x150x512x512.Idx => h.drop i = j] :
    ∑ i ∈ Finset.univ.filter (fun i : S4x150x512x512.Idx => h.drop i = j), g i
      = ∑ b : Fin 4, ∑ r : Fin 512, ∑ w : Fin 512, g (ix4 b (j 0) r w) := by
  classical
  have hd : ∀ i : S4x150x512x512.Idx, h.drop i = j ↔ i 1 = j 0 := by
    intro i
    constructor
    · intro e
      apply Fin.ext
      rw [← e]
      exact (h.drop_apply_val_of_eq i 0 1).symm
    · intro e
      funext b
      match b with
      | ⟨0, _⟩ => exact Fin.ext ((h.drop_apply_val_of_eq i 0 1).trans (congrArg Fin.val e))
  rw [Finset.filter_congr fun i _ => hd i]
  rw [← Finset.sum_product', ← Finset.sum_product', Finset.univ_product_univ, Finset.univ_product_univ]
  have back : ∀ i : S4x150x512x512.Idx, i 1 = j 0 → ix4 (i 0) (j 0) (i 2) (i 3) = i := fun i e =>
    funext fun a => Fin.ext (by
      match a with
      | ⟨0, _⟩ => rfl
      | ⟨1, _⟩ => exact (congrArg Fin.val e).symm
      | ⟨2, _⟩ => rfl
      | ⟨3, _⟩ => rfl)
  refine Finset.sum_nbij' (fun i : S4x150x512x512.Idx => (((i 0 : Fin 4), (i 2 : Fin 512)), (i 3 : Fin 512)))
    (fun p => ix4 p.1.1 (j 0) p.1.2 p.2) ?_ ?_ ?_ ?_ ?_
  · intro i _
    simp only [Finset.mem_univ]
  · intro p _
    exact Finset.mem_filter.2 ⟨Finset.mem_univ _, rfl⟩
  · intro i hi
    exact back i (Finset.mem_filter.1 hi).2
  · intro p _
    rfl
  · intro i hi
    exact congrArg g (back i (Finset.mem_filter.1 hi).2).symm

/-- For real logits the reference's softmax is `prob`. -/
theorem softmax_eq (x : FVec Ideal SX .f32) (hx : ∀ i, ∃ r : ℝ, x i = (r : EReal)) (i : SX.Idx) :
    val_main_v13 (F := Ideal) x i = prob x i := by
  obtain ⟨μ, hμ⟩ := max_real x hx (idx_main_v6 (idx_main_v7 i))
  choose f hf using hx
  have h9 : ∀ j : SX.Idx, idx_main_v6 (idx_main_v7 j) = idx_main_v6 (idx_main_v7 i) →
      val_main_v9 (F := Ideal) x j = ((Real.exp (f j - μ) : ℝ) : EReal) := by
    intro j hp
    rw [val_main_v9_apply, val_main_v8_apply, val_main_v7_apply, val_main_v6_apply, hp, hμ, hf j]
    show Ideal.exp ((f j : EReal) - (μ : EReal)) = _
    rw [← EReal.coe_sub, Ideal.exp_coe]
  have hs : ∀ k : Fin 150, val_main_v9 (F := Ideal) x (idx_main_v10 (idx_main_v11 (idx_main_v12 i)) k)
      = ((Real.exp (f (ix4 (i 0) k (i 2) (i 3)) - μ) : ℝ) : EReal) := by
    intro k
    have hj : idx_main_v10 (idx_main_v11 (idx_main_v12 i)) k = ix4 (i 0) k (i 2) (i 3) := funext fun a => Fin.ext (by
      match a with
      | ⟨0, _⟩ => rfl
      | ⟨1, _⟩ => rfl
      | ⟨2, _⟩ => rfl
      | ⟨3, _⟩ => rfl)
    rw [hj]
    exact h9 _ (funext fun a => Fin.ext (by
      match a with
      | ⟨0, _⟩ => rfl
      | ⟨1, _⟩ => rfl
      | ⟨2, _⟩ => rfl))
  have hpos : ∀ g : Fin 150 → ℝ, (∑ k, Real.exp (g k)) ≠ 0 := fun g =>
    ne_of_gt (Finset.sum_pos (fun k _ => Real.exp_pos _) ⟨0, Finset.mem_univ _⟩)
  rw [val_main_v13_apply, val_main_v12_apply, val_main_v11_apply, val_main_v10_apply, val_main_cst_2_apply,
    h9 i rfl, Finset.sum_congr rfl fun k _ => hs k, Cert.LibSums.sum_coe]
  show Ideal.div _ (Ideal.ofBits .f32 0x00000000#32 + _) = _
  rw [Ideal.ofBits_zero_f32, zero_add, Ideal.div_coe (hpos _), ← EReal.coe_mul]
  unfold prob expSum
  rw [hf i, one_eq, Ideal.exp_coe]
  simp only [hf, Ideal.exp_coe]
  rw [Cert.LibSums.sum_coe, Ideal.div_coe (hpos _), ← EReal.coe_mul, ← EReal.coe_mul]
  exact congrArg _ (real_softmax _ _ _)

/-- The reference's per-class sums of squares. -/
theorem xs_eq (x : FVec Ideal SX .f32) (hx : ∀ i, ∃ r : ℝ, x i = (r : EReal)) :
    val_main_v15 (F := Ideal) x = xsV x := by
  funext j
  unfold val_main_v15 xsV xs
  rw [hostReduceAdd_apply]
  unfold Ideal.hostReduceAdd
  rw [val_main_cst_3_apply]
  show Ideal.ofBits .f32 0x00000000#32 + _ = _
  rw [Ideal.ofBits_zero_f32, zero_add, sum_class]
  refine Finset.sum_congr rfl fun b _ => Finset.sum_congr rfl fun r _ => Finset.sum_congr rfl fun w _ => ?_
  rw [val_main_v14_apply, softmax_eq x hx]
  rfl

end Cert.Dice.Ref

end
-- ==== Proof.RefScatter.lean ====
/-
  The reference's intersection sums. It gathers, at every pixel, the probability of the pixel's label (a negative
  label counted from the end of the class axis, an index outside the axis read as a filler value), and scatter-adds
  the gathered values at the labels; an update whose label lies outside the class axis is dropped. For non-negative
  labels the entry of class `c` is therefore the sum of the probability of `c` over the pixels labelled `c`.

  The scatter has one index per update and no window: the update of the flattened pixel `j` lands on class `i` exactly
  when its label, read as a signed integer, is `i`. At such a pixel the label is in range, the in-range bit is set, the
  clamp of the gather does nothing, and the gathered value is the softmax of class `i` there. The sum over the flattened
  pixels with that label is then regrouped by image, row and column.
-/
import proofs.«414628_j16355235463504_3_alg».proof.Proof.RefSoftmax
import Idealize.ShloMosaic.Lib.StableHlo.Predicate

noncomputable section

namespace Cert.Dice.Ref

open Cert.ReferenceIdeal Cert.ReferenceIdeal.Gen Cert.ReferenceIdeal.ReadP Idealize.ShloMosaic Idealize.ShloMosaic.ValueIdx
open Cert.Dice
open scoped BigOperators

/-- The labels the reference works with are `lab` of the input. -/
theorem labels_eq (t : IVec ST 32) : val_main_v2 (F := Ideal) t = lab t := by
  funext p
  rw [val_main_v2_apply, val_main_v1_apply, val_main_v0_apply, val_main_c_apply, val_main_call0_v1_apply,
    val_main_call0_v0_apply, val_main_c_0_apply]
  rfl

/-- The scatter-index position of the flattened pixel `j`. -/
abbrev col (j : SF.Idx) : SF1.Idx := fun a => match a with
  | ⟨0, _⟩ => ⟨(j 0).val, (j 0).isLt⟩
  | ⟨1, _⟩ => ⟨0, Nat.one_pos⟩

/-- The class axis is the one axis of the operand: the start of the update of pixel `j` is its scatter index read as a
    signed integer, and there is no window. -/
theorem start_window (idx : IVec SF1 32) (j : SF.Idx) (a : Fin SC.rank) :
    scatter_S150_S1048576x1_S1048576_n_0_0_1.start j idx a
      + (scatter_S150_S1048576x1_S1048576_n_0_0_1.window j a : Int) = (idx (col j)).toInt := by
  obtain rfl : a = 0 := Subsingleton.elim _ _
  have h1 : scatter_S150_S1048576x1_S1048576_n_0_0_1.start j idx 0 = (idx (col j)).toInt := by
    unfold ScatterDims.start
    rw [dif_pos (show (0 : Fin 1) ∈ scatter_S150_S1048576x1_S1048576_n_0_0_1.scatterDimsToOperandDims from
      List.mem_singleton.mpr rfl)]
    refine congrArg (fun q => (idx q).toInt) (funext fun b => ?_)
    match b with
    | ⟨0, _⟩ => rfl
    | ⟨1, _⟩ => rfl
  have h2 : scatter_S150_S1048576x1_S1048576_n_0_0_1.window j 0 = 0 := by
    unfold ScatterDims.window
    rw [dif_neg (by decide)]
  rw [h1, h2]; simp

/-- The update of pixel `j` lands on class `i` exactly when its scatter index, read signed, is `i`. -/
theorem resultIdx_iff (idx : IVec SF1 32) (j : SF.Idx) (i : SC.Idx) :
    scatter_S150_S1048576x1_S1048576_n_0_0_1.resultIdx? j idx = some i ↔ (idx (col j)).toInt = ((i 0).val : Int) := by
  have hi : (i 0).val < 150 := (i 0).isLt
  unfold ScatterDims.resultIdx?
  split
  · rename_i h
    have h0 := h 0
    rw [start_window idx j 0] at h0
    constructor
    · intro e
      have e' := congrArg (fun f : SC.Idx => ((f 0).val : Int)) (Option.some.inj e)
      simp only [start_window idx j 0] at e'
      rw [← e']; exact (Int.toNat_of_nonneg h0.1).symm
    · intro e
      refine congrArg some (funext fun a => ?_)
      obtain rfl : a = 0 := Subsingleton.elim _ _
      refine Fin.ext ?_
      show (scatter_S150_S1048576x1_S1048576_n_0_0_1.start j idx 0
        + (scatter_S150_S1048576x1_S1048576_n_0_0_1.window j 0 : Int)).toNat = (i 0).val
      rw [start_window idx j 0, e]; simp
  · rename_i h
    constructor
    · intro e; cases e
    · intro e
      refine absurd (fun a => ?_) h
      obtain rfl : a = 0 := Subsingleton.elim _ _
      rw [start_window idx j 0, e]
      exact ⟨by omega, by show ((i 0).val : Int) < 150; omega⟩

/-! ## Labels as signed integers -/

/-- A class number, as a 32-bit word, reads back as itself. -/
theorem toInt_ofNat_class (c : Nat) (hc : c < 150) : (BitVec.ofNat 32 c).toInt = (c : Int) := by
  rw [BitVec.toInt_eq_toNat_cond, BitVec.toNat_ofNat, Nat.mod_eq_of_lt (by omega)]
  split <;> omega

/-- A label reads as the class `c` exactly when it is the word of `c`. -/
theorem toInt_eq_class_iff (l : BitVec 32) (c : Nat) (hc : c < 150) : l.toInt = (c : Int) ↔ l = BitVec.ofNat 32 c := by
  constructor
  · intro e; exact BitVec.eq_of_toInt_eq (by rw [e, toInt_ofNat_class c hc])
  · intro e; rw [e, toInt_ofNat_class c hc]

/-- Non-negative labels stay non-negative when the ignore value is read as class 0. -/
theorem lab_nonneg (t : IVec ST 32) (ht : ∀ p, 0 ≤ (t p).toInt) (p : ST.Idx) : 0 ≤ (lab t p).toInt := by
  unfold lab
  by_cases h : IntOp.cmpi .ne (t p) 255#32 = 1#1
  · rw [h, select_one]; exact ht p
  · rw [eq_zero_of_ne_one h, select_zero]; decide

/-- A non-negative word is not below zero, so a "count from the end if negative" select leaves it alone. -/
theorem wrap_nonneg (l k : BitVec 32) (hl : 0 ≤ l.toInt) :
    Scalar.select (IntOp.cmpi .slt l 0#32) (IntOp.addi l k) l = l := by
  have h : ¬ IntOp.cmpi .slt l 0#32 = 1#1 := by
    rw [IntOp.cmpi_slt]; show ¬ l.toInt < 0; omega
  rw [eq_zero_of_ne_one h, select_zero]

/-- The scatter index of pixel `j` is its label. -/
theorem scatIdx_apply (t : IVec ST 32) (ht : ∀ p, 0 ≤ (t p).toInt) (j : SF.Idx) :
    val_main_v27 (F := Ideal) t (col j) = lab t (idx_main_v19 j) := by
  have e : idx_main_v27 (col j) = j := funext fun a => by
    obtain rfl : a = 0 := Subsingleton.elim _ _
    rfl
  rw [val_main_v27_apply, e, val_main_v26_apply, val_main_v23_apply, val_main_v25_apply, val_main_v19_apply,
    val_main_v22_apply, val_main_c_5_apply, labels_eq]
  exact wrap_nonneg _ _ (lab_nonneg t ht _)

/-! ## The gathered update -/

/-- The start-index position of the gather's result index `(b, 0, h, w)`. -/
abbrev pos5 (b : Fin 4) (h w : Fin 512) : S4x1x512x512x1.Idx := ix5 b (0 : Fin 1) h w (0 : Fin 1)

/-- On a batching axis the gather reads the result's own coordinate. -/
theorem gather_batch (idx : IVec S4x1x512x512x1 32) (q : S4x1x512x512.Idx) (a : Fin 4) (ha : a ≠ 1) :
    gather_S4x150x512x512_S4x1x512x512x1_S4x1x512x512_n_1_023_023_1_4_1111.start q idx a
      + gather_S4x150x512x512_S4x1x512x512x1_S4x1x512x512_n_1_023_023_1_4_1111.batchCoord q a
      + gather_S4x150x512x512_S4x1x512x512x1_S4x1x512x512_n_1_023_023_1_4_1111.offCoord q a = (q a).val := by
  have hb : a ∈ gather_S4x150x512x512_S4x1x512x512x1_S4x1x512x512_n_1_023_023_1_4_1111.operandBatchingDims := by
    revert a; decide
  have hk : a ∉ gather_S4x150x512x512_S4x1x512x512x1_S4x1x512x512_n_1_023_023_1_4_1111.sKept := by
    revert a; decide
  rw [GatherDims.start_batching _ _ _ _ hb, GatherDims.offCoord_eq_zero _ _ _ hk, Nat.zero_add, Nat.add_zero]
  unfold GatherDims.batchCoord
  rw [dif_pos hb]
  match a with
  | ⟨0, _⟩ => rfl
  | ⟨1, _⟩ => exact absurd rfl ha
  | ⟨2, _⟩ => rfl
  | ⟨3, _⟩ => rfl

/-- The gather along the class axis reads, at `(b, 0, h, w)`, the operand at class "start index, clamped". -/
theorem gather_apply {α : Type} (xv : S4x150x512x512.Idx → α) (idx : IVec S4x1x512x512x1 32) (b : Fin 4) (h w : Fin 512) :
    Host.gather gather_S4x150x512x512_S4x1x512x512x1_S4x1x512x512_n_1_023_023_1_4_1111 xv idx (ix4 b (0 : Fin 1) h w)
      = xv (ix4 b (⟨min (idx (pos5 b h w)).toInt.toNat 149, by omega⟩ : Fin 150) h w) := by
  unfold Host.gather
  refine congrArg xv (funext fun a => Fin.ext ?_)
  match a with
  | ⟨0, _⟩ => exact gather_batch idx _ 0 (by decide)
  | ⟨1, _⟩ =>
    show gather_S4x150x512x512_S4x1x512x512x1_S4x1x512x512_n_1_023_023_1_4_1111.start (ix4 b (0 : Fin 1) h w) idx 1
      + gather_S4x150x512x512_S4x1x512x512x1_S4x1x512x512_n_1_023_023_1_4_1111.batchCoord (ix4 b (0 : Fin 1) h w) 1
      + gather_S4x150x512x512_S4x1x512x512x1_S4x1x512x512_n_1_023_023_1_4_1111.offCoord (ix4 b (0 : Fin 1) h w) 1
      = min (idx (pos5 b h w)).toInt.toNat 149
    rw [GatherDims.batchCoord_eq_zero _ _ _ (by decide), GatherDims.offCoord_eq_zero _ _ _ (by decide)]
    simp only [Nat.add_zero]
    unfold GatherDims.start
    rw [dif_pos (show (1 : Fin 4) ∈ gather_S4x150x512x512_S4x1x512x512x1_S4x1x512x512_n_1_023_023_1_4_1111.startIndexMap from
      List.mem_singleton.mpr rfl)]
    refine congrArg (fun q => min (idx q).toInt.toNat 149) (funext fun c => ?_)
    match c with
    | ⟨0, _⟩ => rfl
    | ⟨1, _⟩ => rfl
    | ⟨2, _⟩ => rfl
    | ⟨3, _⟩ => rfl
    | ⟨4, _⟩ => rfl
  | ⟨2, _⟩ => exact gather_batch idx _ 2 (by decide)
  | ⟨3, _⟩ => exact gather_batch idx _ 3 (by decide)

/-- A fold over a one-element range is one application. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- The in-range bit: the "and" over the size-one last axis is the one element under it. -/
theorem allIn_apply (m : IVec S4x1x512x512x1 1) (b : Fin 4) (h w : Fin 512) :
    Host.reduce IntOp.andi m (val_main_call1_c_3 (F := Ideal)) reducesTo_S4x1x512x512x1_S4x1x512x512_d4 h_S_
        (ix4 b (0 : Fin 1) h w) = IntOp.andi (m (pos5 b h w)) 1#1 := by
  have hr : S4x1x512x512x1.Reduces [4] S4x1x512x512 := by decide
  rw [Host.reduce_eq_fold_single IntOp.andi m _ reducesTo_S4x1x512x512x1_S4x1x512x512_d4 hr h_S_]
  refine (fold_fin_one IntOp.andi _ _).trans ?_
  have e : hr.lift (ix4 b (0 : Fin 1) h w) (0 : Fin 1) = pos5 b h w := funext fun a => Fin.ext (by
    match a with
    | ⟨0, _⟩ => rfl
    | ⟨1, _⟩ => rfl
    | ⟨2, _⟩ => rfl
    | ⟨3, _⟩ => rfl
    | ⟨4, _⟩ => rfl)
  show IntOp.andi (m (hr.lift (ix4 b (0 : Fin 1) h w) (0 : Fin 1))) _ = _
  rw [e]
  rfl

/-- The gather's start index at `(b, 0, h, w)` is the label of pixel `(b, h, w)`. -/
theorem start_apply (t : IVec ST 32) (ht : ∀ p, 0 ≤ (t p).toInt) (b : Fin 4) (h w : Fin 512) :
    val_main_call1_v5 (F := Ideal) t (pos5 b h w) = lab t (ix3 b h w) := by
  have e5 : idx_main_call1_v5 (pos5 b h w) = ix4 b (0 : Fin 1) h w := funext fun a => Fin.ext (by
    have hb := b.isLt; have hh := h.isLt; have hw := w.isLt
    match a with
    | ⟨0, _⟩ => show ((((b.val * 1 + 0) * 512 + h.val) * 512 + w.val) * 1 + 0) / 262144 = b.val; omega
    | ⟨1, _⟩ => rfl
    | ⟨2, _⟩ => show ((((b.val * 1 + 0) * 512 + h.val) * 512 + w.val) * 1 + 0) / 512 % 512 = h.val; omega
    | ⟨3, _⟩ => show ((((b.val * 1 + 0) * 512 + h.val) * 512 + w.val) * 1 + 0) % 512 = w.val; omega)
  have e16 : idx_main_v16 (ix4 b (0 : Fin 1) h w) = ix3 b h w := funext fun a => by
    match a with
    | ⟨0, _⟩ => rfl
    | ⟨1, _⟩ => rfl
    | ⟨2, _⟩ => rfl
  rw [val_main_call1_v5_apply, e5, val_main_call1_v4_apply, val_main_call1_v1_apply, val_main_call1_v3_apply,
    val_main_v16_apply, e16, val_main_call1_v0_apply, val_main_call1_c_apply, labels_eq]
  exact wrap_nonneg _ _ (lab_nonneg t ht _)

/-- At a pixel labelled `c` the gathered value is the probability of class `c` there. -/
theorem taken_apply (x : FVec Ideal SX .f32) (t : IVec ST 32) (hx : ∀ i, ∃ r : ℝ, x i = (r : EReal))
    (ht : ∀ p, 0 ≤ (t p).toInt) (b : Fin 4) (h w : Fin 512) (c : Fin 150)
    (hl : lab t (ix3 b h w) = BitVec.ofNat 32 c.val) :
    val_main_v17 (F := Ideal) x t (ix4 b (0 : Fin 1) h w) = prob x (ix4 b c h w) := by
  have hc := c.isLt
  have hs : val_main_call1_v5 (F := Ideal) t (pos5 b h w) = BitVec.ofNat 32 c.val := (start_apply t ht b h w).trans hl
  have hin : val_main_call1_v12 (F := Ideal) t (ix4 b (0 : Fin 1) h w) = 1#1 := by
    unfold val_main_call1_v12
    rw [allIn_apply, val_main_call1_v11_apply, val_main_call1_v7_apply, val_main_call1_v10_apply, hs,
      val_main_call1_v6_apply, val_main_call1_c_2_apply, val_main_call1_v9_apply, val_main_call1_v8_apply,
      val_main_call1_c_1_apply]
    have h1 : IntOp.cmpi .sge (BitVec.ofNat 32 c.val) 0#32 = 1#1 := by
      rw [IntOp.cmpi_sge, toInt_ofNat_class c.val hc]; show (0 : Int) ≤ _; omega
    have h2 : IntOp.cmpi .sle (BitVec.ofNat 32 c.val) 149#32 = 1#1 := by
      rw [IntOp.cmpi_sle, toInt_ofNat_class c.val hc]; show _ ≤ (149 : Int); omega
    rw [h1, h2]; rfl
  rw [val_main_v17_apply, hin, select_one]
  unfold val_main_call1_v13
  rw [gather_apply, softmax_eq x hx]
  refine congrArg (fun k => prob x (ix4 b k h w)) (Fin.ext ?_)
  show min (val_main_call1_v5 (F := Ideal) t (pos5 b h w)).toInt.toNat 149 = c.val
  rw [hs, toInt_ofNat_class c.val hc, Int.toNat_natCast]
  omega

/-- The update of a pixel labelled `c` is the probability of class `c` at that pixel. -/
theorem upd_apply (x : FVec Ideal SX .f32) (t : IVec ST 32) (hx : ∀ i, ∃ r : ℝ, x i = (r : EReal))
    (ht : ∀ p, 0 ≤ (t p).toInt) (j : SF.Idx) (c : Fin 150)
    (hl : lab t (idx_main_v19 j) = BitVec.ofNat 32 c.val) :
    val_main_v21 (F := Ideal) x t j
      = prob x (ix4 (idx_main_v19 j 0) c (idx_main_v19 j 1) (idx_main_v19 j 2)) := by
  have e : idx_main_v18 (idx_main_v21 j) = ix4 (idx_main_v19 j 0) (0 : Fin 1) (idx_main_v19 j 1) (idx_main_v19 j 2) :=
    funext fun a => Fin.ext (by
      have hj : (j 0).val < 1048576 := (j 0).isLt
      match a with
      | ⟨0, _⟩ =>
        show ((((j 0).val / 262144) * 512 + (j 0).val / 512 % 512) * 512 + (j 0).val % 512) / 262144 = (j 0).val / 262144
        omega
      | ⟨1, _⟩ => rfl
      | ⟨2, _⟩ =>
        show ((((j 0).val / 262144) * 512 + (j 0).val / 512 % 512) * 512 + (j 0).val % 512) / 512 % 512 = (j 0).val / 512 % 512
        omega
      | ⟨3, _⟩ =>
        show ((((j 0).val / 262144) * 512 + (j 0).val / 512 % 512) * 512 + (j 0).val % 512) % 512 = (j 0).val % 512
        omega)
  rw [val_main_v21_apply, val_main_v18_apply, e]
  refine taken_apply x t hx ht _ _ _ c ?_
  exact (congrArg (lab t) (eq_ix3 (idx_main_v19 j))).symm.trans hl

/-! ## The sum over the pixels, by coordinates -/

/-- The flattened pixels are the pixels `(b, h, w)`, row-major. -/
def pixEquiv : SF.Idx ≃ ST.Idx where
  toFun j := idx_main_v19 j
  invFun p := ix1 (⟨((p 0).val * 512 + (p 1).val) * 512 + (p 2).val, by
    have h0 : (p 0).val < 4 := (p 0).isLt; have h1 : (p 1).val < 512 := (p 1).isLt
    have h2 : (p 2).val < 512 := (p 2).isLt; omega⟩ : Fin 1048576)
  left_inv j := by
    rw [eq_ix1 j]
    refine congrArg ix1 (Fin.ext ?_)
    have hj : (j 0).val < 1048576 := (j 0).isLt
    show (((j 0).val / 262144) * 512 + (j 0).val / 512 % 512) * 512 + (j 0).val % 512 = (j 0).val
    omega
  right_inv p := funext fun a => Fin.ext (by
    have h0 : (p 0).val < 4 := (p 0).isLt; have h1 : (p 1).val < 512 := (p 1).isLt
    have h2 : (p 2).val < 512 := (p 2).isLt
    match a with
    | ⟨0, _⟩ => show (((p 0).val * 512 + (p 1).val) * 512 + (p 2).val) / 262144 = (p 0).val; omega
    | ⟨1, _⟩ => show (((p 0).val * 512 + (p 1).val) * 512 + (p 2).val) / 512 % 512 = (p 1).val; omega
    | ⟨2, _⟩ => show (((p 0).val * 512 + (p 1).val) * 512 + (p 2).val) % 512 = (p 2).val; omega)

/-- A sum over the flattened pixels is the triple sum over image, row and column. -/
theorem sum_pix (g : ST.Idx → EReal) :
    ∑ j : SF.Idx, g (idx_main_v19 j) = ∑ b : Fin 4, ∑ h : Fin 512, ∑ w : Fin 512, g (ix3 b h w) := by
  rw [← Cert.LibSums.sum_idx3 g]
  exact Equiv.sum_comp pixEquiv g

/-- A scatter-add over the extended reals, read at an element: the operand there plus the sum of the updates that land
    on it (stated over any shapes, where it holds by definition). -/
theorem scatterAdd_apply {s si su : Shape} {w : Nat} {φ : FTy} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

theorem it_eq (x : FVec Ideal SX .f32) (t : IVec ST 32) (hx : ∀ i, ∃ r : ℝ, x i = (r : EReal)) (ht : ∀ p, 0 ≤ (t p).toInt) :
    val_main_v28 (F := Ideal) x t = itV x (lab t) := by
  funext i
  have hc : (i 0).val < 150 := (i 0).isLt
  have hz : val_main_v20 (F := Ideal) i = 0 := by
    rw [val_main_v20_apply, val_main_cst_4_apply, Ideal.ofBits_def]
    exact Ideal.ofBits_zero_f32
  have hf : ∀ j : SF.Idx,
      (scatter_S150_S1048576x1_S1048576_n_0_0_1.resultIdx? j (val_main_v27 (F := Ideal) t) = some i)
        ↔ lab t (idx_main_v19 j) = BitVec.ofNat 32 (i 0).val := fun j => by
    rw [resultIdx_iff, scatIdx_apply t ht j]
    exact toInt_eq_class_iff _ _ hc
  unfold val_main_v28
  rw [scatterAdd_apply, hz, zero_add, Finset.filter_congr (fun j _ => hf j), Finset.sum_filter]
  refine (Finset.sum_congr rfl fun j _ => ?_).trans
    (sum_pix fun p => if lab t p = BitVec.ofNat 32 (i 0).val then prob x (ix4 (p 0) (i 0) (p 1) (p 2)) else 0)
  by_cases hl : lab t (idx_main_v19 j) = BitVec.ofNat 32 (i 0).val
  · rw [if_pos hl, if_pos hl]; exact upd_apply x t hx ht j (i 0) hl
  · rw [if_neg hl, if_neg hl]
end Cert.Dice.Ref

end
-- ==== Proof.RefValue.lean ====
/-
  The reference's results in the words of the specification: for real logits and non-negative labels its dice vector is
  `dice` of the three per-class sums, and its loss is `loss` of that vector.
-/
import proofs.«414628_j16355235463504_3_alg».proof.Proof.RefRun
import proofs.«414628_j16355235463504_3_alg».proof.Proof.RefScatter

noncomputable section

namespace Cert.Dice.Ref

open Cert.ReferenceIdeal Cert.ReferenceIdeal.Gen Cert.ReferenceIdeal.ReadP Idealize.ShloMosaic Idealize.ShloMosaic.TcCoe
open Idealize.ShloMosaic.ValueIdx Idealize.SL.Sem
open Cert.Dice

/-- The reference's count of the pixels of every label. -/
theorem ysum_eq (t : IVec ST 32) :
    val_main_v37 (F := Ideal) t
      = ysum shapeCasts_S4x512x512_S1048576 bcast_S_S1048576 bcast_S1048576_S1048576x1_0 bcast_S_S150 (lab t) := by
  rw [← labels_eq]
  rfl

/-- The reference's dice vector. -/
theorem dice_eq (x : FVec Ideal SX .f32) (t : IVec ST 32) (hx : ∀ i, ∃ r : ℝ, x i = (r : EReal)) (ht : ∀ p, 0 ≤ (t p).toInt) :
    val_main_v45 (F := Ideal) x t
      = dice bcast_S_S150 (xsV x) (itV x (lab t))
          (ysum shapeCasts_S4x512x512_S1048576 bcast_S_S1048576 bcast_S1048576_S1048576x1_0 bcast_S_S150 (lab t)) := by
  unfold val_main_v45 val_main_v41 val_main_v44 val_main_v39 val_main_v42
  rw [xs_eq x hx, it_eq x t hx ht, ysum_eq]
  rfl

/-- The reference's loss. -/
theorem loss_eq (x : FVec Ideal SX .f32) (t : IVec ST 32) :
    val_main_v49 (F := Ideal) x t = loss bcast_S_S150 reducesTo_S150_S_d0 h_S_ (val_main_v45 (F := Ideal) x t) := rfl

end Cert.Dice.Ref

end
-- ==== Proof.lean ====
/-
  The Dice loss of a softmax over 150 classes against integer labels: a kernel that streams the logits once, tile by
  tile, against the plain formula.

  Both programs compute, per class `c`, `dice c = (2 · I c + ε) / (X c + Y c + ε)` and `loss = (∑ c, (1 − dice c)) / 150`,
  where `X c` is the sum over all pixels of the squared softmax probability of `c`, `I c` the sum of that probability
  over the pixels labelled `c`, and `Y c` the number of pixels labelled `c` (the label 255 read as class 0).

  They differ in three ways, each an identity of the extended reals. The reference subtracts the maximum over the
  classes before it exponentiates and divides by the sum; the kernel multiplies the exponential by the reciprocal of
  the sum of the exponentials: equal where the logits are real numbers, which the precondition says. The kernel adds
  `X` and `I` up tile by tile (16 rows of an image at a time, one accumulator row per image, the images added by the
  host); the reference sums over images, rows and columns at once: the same finite sum regrouped. And the kernel finds
  the pixels of class `c` by comparing the label with `c`, where the reference gathers the probability at the label
  and scatter-adds it at the label, counting a negative label from the end of the class axis: the same sum where no
  label is negative, which the precondition says too. `Y`, and the arithmetic after the three sums, are the same
  operations in both programs.
-/
import proofs.«414628_j16355235463504_3_alg».proof.Defs
import proofs.«414628_j16355235463504_3_alg».proof.Proof.Gen.Kernel
import proofs.«414628_j16355235463504_3_alg».proof.Proof.Gen.Kernel.Frame
import proofs.«414628_j16355235463504_3_alg».proof.Proof.Gen.KernelIdeal
import proofs.«414628_j16355235463504_3_alg».proof.Proof.Gen.KernelIdeal.Frame
import proofs.«414628_j16355235463504_3_alg».proof.Proof.Gen.ReferenceIdeal
import proofs.«414628_j16355235463504_3_alg».proof.Proof.Gen.Pre_finite_inputs
import proofs.«414628_j16355235463504_3_alg».proof.Proof.PreFacts
import proofs.«414628_j16355235463504_3_alg».proof.Proof.KTail
import proofs.«414628_j16355235463504_3_alg».proof.Proof.RefValue
import Idealize.ShloMosaic.Adequacy
import Idealize.ShloMosaic.Init

noncomputable section

namespace Cert.Proof

open Idealize.ShloMosaic Idealize.SL.Sem

/-- The kernel's program, as printed, runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments alone: its run with the two results dropped. -/
theorem frame_ri : Cert.frame_ReferenceIdeal := fun m ρ _ =>
  (θ_run Cert.ReferenceIdeal.defs _ _).mono (fun _ h c => (h c).2.2) (Cert.ReferenceIdeal.RunP.run (F := Ideal) m ρ)

/-- Nothing of the kernel was rewritten when it was read over the extended reals. -/
theorem preserves : Cert.preserves_Kernel_KernelIdeal := trivial

/-- From inputs that agree, real logits and non-negative labels, both programs end with the same loss and the same
    dice vector: the kernel's are the specification's by its run, the reference's by its stages. -/
theorem algebraic : Cert.algebraic_KernelIdeal_ReferenceIdeal := by
  intro m ρ m' ρ' hpre hagree
  refine ⟨_, _, Cert.KernelIdeal.DiceValue.run m ρ, ?_⟩
  refine (θ_run Cert.ReferenceIdeal.defs _ _).mono (fun r h c => ?_) (Cert.ReferenceIdeal.RunP.run (F := Ideal) m' ρ')
  obtain ⟨hx, ht⟩ := Cert.Dice.Pre.of_pre _ _ (hpre c)
  obtain ⟨h49, h45, ha0, ha1⟩ := h c
  have e0 := (hagree c).1
  have e1 := (hagree c).2
  refine ⟨h49.trans ?_, h45.trans ?_, ha0, ha1⟩
  · rw [e0, e1, Cert.Dice.Ref.loss_eq, Cert.Dice.Ref.dice_eq _ _ hx ht]
  · rw [e0, e1, Cert.Dice.Ref.dice_eq _ _ hx ht]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
